-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x20 : Shape := ⟨2, ![524288, 20]⟩
abbrev S168 : Shape := ⟨1, ![168]⟩
abbrev S168x20 : Shape := ⟨2, ![168, 20]⟩
abbrev S_ : Shape := ⟨0, ![]⟩

class Facts : Prop where
  bcast_S_S524288x20 : S_.BroadcastsInDim S524288x20 (![] : Fin 0 → Fin S524288x20.rank)
  reducesTo_S524288x20_S_d0_1 : S524288x20.ReducesTo [0, 1] S_
  h_S_ : 0 < S_.numel
  bcast_S_S168 : S_.BroadcastsInDim S168 (![] : Fin 0 → Fin S168.rank)
  reducesTo_S168_S_d0 : S168.ReducesTo [0] S_
  bcast_S_S168x20 : S_.BroadcastsInDim S168x20 (![] : Fin 0 → Fin S168x20.rank)
  reducesTo_S168x20_S_d0_1 : S168x20.ReducesTo [0, 1] S_

variable [Facts]

def fn_part1 {F : FTy → Type} [FloatOps F] (main_v13 : IVec S_ 1) (main_v16 : IVec S168x20 1) : IVec S_ 1 :=
  let main_c_5 : IVec S_ 1 := constantI S_ 1 1#1
  let main_v17 : IVec S_ 1 := (fun x v => Host.reduce IntOp.andi x v reducesTo_S168x20_S_d0_1 h_S_) main_v16 main_c_5
  let main_v18 : IVec S_ 1 := andi main_v13 main_v17
  main_v18

def fn {F : FTy → Type} [FloatOps F] (main_arg0 : FVec F S524288x20 .f32) (main_arg1 : FVec F S168 .f32) (main_arg2 : FVec F S168x20 .f32) (main_arg3 : FVec F S168x20 .f32) : IVec S_ 1 :=
  let main_v0 : FVec F S524288x20 .f32 := Host.absf main_arg0
  let main_cst : FVec F S_ .f32 := constant S_ .f32 0x7F800000#32
  let main_v1 : FVec F S524288x20 .f32 := broadcastInDim S524288x20 ![] bcast_S_S524288x20 main_cst
  let main_v2 : IVec S524288x20 1 := cmpf .olt main_v0 main_v1
  let main_c : IVec S_ 1 := constantI S_ 1 1#1
  let main_v3 : IVec S_ 1 := (fun x v => Host.reduce IntOp.andi x v reducesTo_S524288x20_S_d0_1 h_S_) main_v2 main_c
  let main_v4 : FVec F S168 .f32 := Host.absf main_arg1
  let main_cst_0 : FVec F S_ .f32 := constant S_ .f32 0x7F800000#32
  let main_v5 : FVec F S168 .f32 := broadcastInDim S168 ![] bcast_S_S168 main_cst_0
  let main_v6 : IVec S168 1 := cmpf .olt main_v4 main_v5
  let main_c_1 : IVec S_ 1 := constantI S_ 1 1#1
  let main_v7 : IVec S_ 1 := (fun x v => Host.reduce IntOp.andi x v reducesTo_S168_S_d0 h_S_) main_v6 main_c_1
  let main_v8 : IVec S_ 1 := andi main_v3 main_v7
  let main_v9 : FVec F S168x20 .f32 := Host.absf main_arg2
  let main_cst_2 : FVec F S_ .f32 := constant S_ .f32 0x7F800000#32
  let main_v10 : FVec F S168x20 .f32 := broadcastInDim S168x20 ![] bcast_S_S168x20 main_cst_2
  let main_v11 : IVec S168x20 1 := cmpf .olt main_v9 main_v10
  let main_c_3 : IVec S_ 1 := constantI S_ 1 1#1
  let main_v12 : IVec S_ 1 := (fun x v => Host.reduce IntOp.andi x v reducesTo_S168x20_S_d0_1 h_S_) main_v11 main_c_3
  let main_v13 : IVec S_ 1 := andi main_v8 main_v12
  let main_v14 : FVec F S168x20 .f32 := Host.absf main_arg3
  let main_cst_4 : FVec F S_ .f32 := constant S_ .f32 0x7F800000#32
  let main_v15 : FVec F S168x20 .f32 := broadcastInDim S168x20 ![] bcast_S_S168x20 main_cst_4
  let main_v16 : IVec S168x20 1 := cmpf .olt main_v14 main_v15
  fn_part1 (F := F) main_v13 main_v16
-- ==== Kernel.lean ====
abbrev S524288x20 : Shape := ⟨2, ![524288, 20]⟩
abbrev S168 : Shape := ⟨1, ![168]⟩
abbrev S168x20 : Shape := ⟨2, ![168, 20]⟩
abbrev S_ : Shape := ⟨0, ![]⟩
abbrev S1 : Shape := ⟨1, ![1]⟩
abbrev S20 : Shape := ⟨1, ![20]⟩
abbrev S1x20 : Shape := ⟨2, ![1, 20]⟩
abbrev S168x1 : Shape := ⟨2, ![168, 1]⟩
abbrev S20x168 : Shape := ⟨2, ![20, 168]⟩
abbrev S1x168 : Shape := ⟨2, ![1, 168]⟩
abbrev S524288x1 : Shape := ⟨2, ![524288, 1]⟩
abbrev S2048x20 : Shape := ⟨2, ![2048, 20]⟩
abbrev S2048x1 : Shape := ⟨2, ![2048, 1]⟩
abbrev S2048x168 : Shape := ⟨2, ![2048, 168]⟩
abbrev S2048 : Shape := ⟨1, ![2048]⟩

abbrev nBuf : Space → Nat
  | .hbm => 77
  | .vmem => 8
  | .smem => 0
  | _ => 0

abbrev bufTy : (tb : Table) → Fin (tcTables nBuf tb) → BufTy
  | .hbm, ⟨0, _⟩ => ⟨S524288x20, .f32⟩
  | .hbm, ⟨1, _⟩ => ⟨S168, .f32⟩
  | .hbm, ⟨2, _⟩ => ⟨S168x20, .f32⟩
  | .hbm, ⟨3, _⟩ => ⟨S168x20, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1, .f32⟩
  | .hbm, ⟨9, _⟩ => ⟨S168, .f32⟩
  | .hbm, ⟨10, _⟩ => ⟨S168, .f32⟩
  | .hbm, ⟨11, _⟩ => ⟨S168, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S168, .f32⟩
  | .hbm, ⟨16, _⟩ => ⟨S168, .f32⟩
  | .hbm, ⟨17, _⟩ => ⟨S168, .i32⟩
  | .hbm, ⟨18, _⟩ => ⟨S_, .i32⟩
  | .hbm, ⟨19, _⟩ => ⟨S_, .i32⟩
  | .hbm, ⟨20, _⟩ => ⟨S168, .i32⟩
  | .hbm, ⟨21, _⟩ => ⟨S168, .i32⟩
  | .hbm, ⟨22, _⟩ => ⟨S168, .i32⟩
  | .hbm, ⟨23, _⟩ => ⟨S_, .i32⟩
  | .hbm, ⟨24, _⟩ => ⟨S168, .i32⟩
  | .hbm, ⟨25, _⟩ => ⟨S168, .i1⟩
  | .hbm, ⟨26, _⟩ => ⟨S168, .i32⟩
  | .hbm, ⟨27, _⟩ => ⟨S168, .i32⟩
  | .hbm, ⟨28, _⟩ => ⟨S_, .i32⟩
  | .hbm, ⟨29, _⟩ => ⟨S168, .i32⟩
  | .hbm, ⟨30, _⟩ => ⟨S168, .i1⟩
  | .hbm, ⟨31, _⟩ => ⟨S168, .i1⟩
  | .hbm, ⟨32, _⟩ => ⟨S_, .i32⟩
  | .hbm, ⟨33, _⟩ => ⟨S168, .i32⟩
  | .hbm, ⟨34, _⟩ => ⟨S168, .i32⟩
  | .hbm, ⟨35, _⟩ => ⟨S168, .i32⟩
  | .hbm, ⟨36, _⟩ => ⟨S20, .i32⟩
  | .hbm, ⟨37, _⟩ => ⟨S1x20, .i32⟩
  | .hbm, ⟨38, _⟩ => ⟨S168x1, .i32⟩
  | .hbm, ⟨39, _⟩ => ⟨S168x20, .i32⟩
  | .hbm, ⟨40, _⟩ => ⟨S168x20, .i32⟩
  | .hbm, ⟨41, _⟩ => ⟨S168x20, .i1⟩
  | .hbm, ⟨42, _⟩ => ⟨S_, .f32⟩
  | .hbm, ⟨43, _⟩ => ⟨S_, .f32⟩
  | .hbm, ⟨44, _⟩ => ⟨S168x20, .f32⟩
  | .hbm, ⟨45, _⟩ => ⟨S168x20, .f32⟩
  | .hbm, ⟨46, _⟩ => ⟨S168x20, .f32⟩
  | .hbm, ⟨47, _⟩ => ⟨S168x20, .f32⟩
  | .hbm, ⟨48, _⟩ => ⟨S168x20, .f32⟩
  | .hbm, ⟨49, _⟩ => ⟨S_, .f32⟩
  | .hbm, ⟨50, _⟩ => ⟨S168x20, .f32⟩
  | .hbm, ⟨51, _⟩ => ⟨S168x20, .f32⟩
  | .hbm, ⟨52, _⟩ => ⟨S168, .f32⟩
  | .hbm, ⟨53, _⟩ => ⟨S_, .f32⟩
  | .hbm, ⟨54, _⟩ => ⟨S168, .f32⟩
  | .hbm, ⟨55, _⟩ => ⟨S168, .f32⟩
  | .hbm, ⟨56, _⟩ => ⟨S_, .f32⟩
  | .hbm, ⟨57, _⟩ => ⟨S168, .f32⟩
  | .hbm, ⟨58, _⟩ => ⟨S168, .f32⟩
  | .hbm, ⟨59, _⟩ => ⟨S_, .f32⟩
  | .hbm, ⟨60, _⟩ => ⟨S168, .f32⟩
  | .hbm, ⟨61, _⟩ => ⟨S168, .f32⟩
  | .hbm, ⟨62, _⟩ => ⟨S168, .f32⟩
  | .hbm, ⟨63, _⟩ => ⟨S_, .f32⟩
  | .hbm, ⟨64, _⟩ => ⟨S168, .f32⟩
  | .hbm, ⟨65, _⟩ => ⟨S168, .f32⟩
  | .hbm, ⟨66, _⟩ => ⟨S168x20, .f32⟩
  | .hbm, ⟨67, _⟩ => ⟨S168x20, .f32⟩
  | .hbm, ⟨68, _⟩ => ⟨S_, .f32⟩
  | .hbm, ⟨69, _⟩ => ⟨S168, .f32⟩
  | .hbm, ⟨70, _⟩ => ⟨S168x20, .f32⟩
  | .hbm, ⟨71, _⟩ => ⟨S168, .f32⟩
  | .hbm, ⟨72, _⟩ => ⟨S20x168, .f32⟩
  | .hbm, ⟨73, _⟩ => ⟨S20x168, .f32⟩
  | .hbm, ⟨74, _⟩ => ⟨S1x168, .f32⟩
  | .hbm, ⟨75, _⟩ => ⟨S1x168, .f32⟩
  | .hbm, ⟨76, _⟩ => ⟨S524288x1, .f32⟩
  | .local _ .vmem, ⟨0, _⟩ => ⟨S2048x20, .f32⟩
  | .local _ .vmem, ⟨1, _⟩ => ⟨S2048x20, .f32⟩
  | .local _ .vmem, ⟨2, _⟩ => ⟨S20x168, .f32⟩
  | .local _ .vmem, ⟨3, _⟩ => ⟨S20x168, .f32⟩
  | .local _ .vmem, ⟨4, _⟩ => ⟨S1x168, .f32⟩
  | .local _ .vmem, ⟨5, _⟩ => ⟨S1x168, .f32⟩
  | .local _ .vmem, ⟨6, _⟩ => ⟨S2048x1, .f32⟩
  | .local _ .vmem, ⟨7, _⟩ => ⟨S2048x1, .f32⟩
  | _, _ => ⟨S524288x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_2 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_5 : Ref sig .tc := ⟨.hbm, 53, rfl⟩
abbrev main_v24 : Ref sig .tc := ⟨.hbm, 54, rfl⟩
abbrev main_v25 : Ref sig .tc := ⟨.hbm, 55, rfl⟩
abbrev main_cst_6 : Ref sig .tc := ⟨.hbm, 56, rfl⟩
abbrev main_v26 : Ref sig .tc := ⟨.hbm, 57, rfl⟩
abbrev main_v27 : Ref sig .tc := ⟨.hbm, 58, rfl⟩
abbrev main_cst_7 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_8 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_9 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20x168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S168_S_d0 : S168.ReducesTo [0] S_
  h_S_ : 0 < S_.numel
  bcast_S_S1 : S_.BroadcastsInDim S1 (![] : Fin 0 → Fin S1.rank)
  bcast_S1_S168_0 : S1.BroadcastsInDim S168 (![0] : Fin 1 → Fin S168.rank)
  bcast_S_S168 : S_.BroadcastsInDim S168 (![] : Fin 0 → Fin S168.rank)
  bcast_S20_S1x20_1 : S20.BroadcastsInDim S1x20 (![1] : Fin 1 → Fin S1x20.rank)
  bcast_S168_S168x1_0 : S168.BroadcastsInDim S168x1 (![0] : Fin 1 → Fin S168x1.rank)
  bcast_S1x20_S168x20_0_1 : S1x20.BroadcastsInDim S168x20 (![0, 1] : Fin 2 → Fin S168x20.rank)
  bcast_S168x1_S168x20_0_1 : S168x1.BroadcastsInDim S168x20 (![0, 1] : Fin 2 → Fin S168x20.rank)
  bcast_S_S168x20 : S_.BroadcastsInDim S168x20 (![] : Fin 0 → Fin S168x20.rank)
  reducesTo_S168x20_S168_d1 : S168x20.ReducesTo [1] S168
  transposes_S168x20_S20x168_1_0 : S168x20.Transposes [1, 0] S20x168
  shapeCasts_S168_S1x168 : S168.ShapeCasts S1x168
  inb_S2048x20_S2048x20_0_0 : ∀ a, (![0, 0] : Fin 2 → Nat) a + S2048x20.size a ≤ S2048x20.size a
  h_S2048x20 : 0 < S2048x20.numel
  inb_S20x168_S20x168_0_0 : ∀ a, (![0, 0] : Fin 2 → Nat) a + S20x168.size a ≤ S20x168.size a
  h_S20x168 : 0 < S20x168.numel
  shapeCasts_S20x168_S20x168 : S20x168.ShapeCasts S20x168
  inb_S1x168_S1x168_0_0 : ∀ a, (![0, 0] : Fin 2 → Nat) a + S1x168.size a ≤ S1x168.size a
  h_S1x168 : 0 < S1x168.numel
  shapeCasts_S1x168_S1x168 : S1x168.ShapeCasts S1x168
  broadcasts_S1x168_S2048x168 : S1x168.Broadcasts S2048x168
  reduces_S2048x168_S2048 : S2048x168.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  dot_S2048x20_S20x168_S2048x168_1_0_0_1_n_n_wf : DotDims.WF S2048x20 S20x168 S2048x168 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x20.size a ≤ S524288x20.size a
  hwx0_0 : ∀ i : grid0.Coords, EltTy.bits .f32 = 32 ∨ (Rect.block (s := S524288x20) S2048x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x168.size a ≤ S20x168.size a
  hwx0_1 : ∀ i : grid0.Coords, EltTy.bits .f32 = 32 ∨ (Rect.block (s := S20x168) S20x168.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x168.size a ≤ S20x168.size a
  hwx0_2 : ∀ i : grid0.Coords, EltTy.bits .f32 = 32 ∨ (Rect.block (s := S20x168) S20x168.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x168.size a ≤ S1x168.size a
  hwx0_3 : ∀ i : grid0.Coords, EltTy.bits .f32 = 32 ∨ (Rect.block (s := S1x168) S1x168.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x168.size a ≤ S1x168.size a
  hwx0_4 : ∀ i : grid0.Coords, EltTy.bits .f32 = 32 ∨ (Rect.block (s := S1x168) S1x168.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S524288x1.size a
  hwx0_5 : ∀ i : grid0.Coords, EltTy.bits .f32 = 32 ∨ (Rect.block (s := S524288x1) S2048x1.size (cc0_transform_5 i) (hinb0_5 i)).WholeWords (EltTy.packing .f32)

variable [Facts₀]

def dot_S2048x20_S20x168_S2048x168_1_0_0_1_n_n : DotDims S2048x20 S20x168 S2048x168 where
  lhsContracting := [1]
  rhsContracting := [0]
  lhsNonContracting := [0]
  rhsNonContracting := [1]
  lhsBatch := []
  rhsBatch := []
  wf := dot_S2048x20_S20x168_S2048x168_1_0_0_1_n_n_wf

abbrev win0_0 : Pipeline.Window sig grid0 :=
  Pipeline.Window.ofSpec (Memref.whole main_arg0) S2048x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S20x168.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S20x168.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x168.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x168.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S524288x20 : Shape := ⟨2, ![524288, 20]⟩
abbrev S168 : Shape := ⟨1, ![168]⟩
abbrev S168x20 : Shape := ⟨2, ![168, 20]⟩
abbrev S_ : Shape := ⟨0, ![]⟩
abbrev S1 : Shape := ⟨1, ![1]⟩
abbrev S20 : Shape := ⟨1, ![20]⟩
abbrev S1x20 : Shape := ⟨2, ![1, 20]⟩
abbrev S168x1 : Shape := ⟨2, ![168, 1]⟩
abbrev S20x168 : Shape := ⟨2, ![20, 168]⟩
abbrev S524288x168 : Shape := ⟨2, ![524288, 168]⟩
abbrev S1x168 : Shape := ⟨2, ![1, 168]⟩
abbrev S524288 : Shape := ⟨1, ![524288]⟩
abbrev S524288x1 : Shape := ⟨2, ![524288, 1]⟩

abbrev nBuf : Space → Nat
  | .hbm => 100
  | .vmem => 0
  | .smem => 0
  | _ => 0

abbrev bufTy : (tb : Table) → Fin (tcTables nBuf tb) → BufTy
  | .hbm, ⟨0, _⟩ => ⟨S524288x20, .f32⟩
  | .hbm, ⟨1, _⟩ => ⟨S168, .f32⟩
  | .hbm, ⟨2, _⟩ => ⟨S168x20, .f32⟩
  | .hbm, ⟨3, _⟩ => ⟨S168x20, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1, .f32⟩
  | .hbm, ⟨9, _⟩ => ⟨S168, .f32⟩
  | .hbm, ⟨10, _⟩ => ⟨S168, .f32⟩
  | .hbm, ⟨11, _⟩ => ⟨S168, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S168, .f32⟩
  | .hbm, ⟨16, _⟩ => ⟨S168, .f32⟩
  | .hbm, ⟨17, _⟩ => ⟨S168, .i32⟩
  | .hbm, ⟨18, _⟩ => ⟨S_, .i32⟩
  | .hbm, ⟨19, _⟩ => ⟨S_, .i32⟩
  | .hbm, ⟨20, _⟩ => ⟨S168, .i32⟩
  | .hbm, ⟨21, _⟩ => ⟨S168, .i32⟩
  | .hbm, ⟨22, _⟩ => ⟨S168, .i32⟩
  | .hbm, ⟨23, _⟩ => ⟨S_, .i32⟩
  | .hbm, ⟨24, _⟩ => ⟨S168, .i32⟩
  | .hbm, ⟨25, _⟩ => ⟨S168, .i1⟩
  | .hbm, ⟨26, _⟩ => ⟨S168, .i32⟩
  | .hbm, ⟨27, _⟩ => ⟨S168, .i32⟩
  | .hbm, ⟨28, _⟩ => ⟨S_, .i32⟩
  | .hbm, ⟨29, _⟩ => ⟨S168, .i32⟩
  | .hbm, ⟨30, _⟩ => ⟨S168, .i1⟩
  | .hbm, ⟨31, _⟩ => ⟨S168, .i1⟩
  | .hbm, ⟨32, _⟩ => ⟨S_, .i32⟩
  | .hbm, ⟨33, _⟩ => ⟨S168, .i32⟩
  | .hbm, ⟨34, _⟩ => ⟨S168, .i32⟩
  | .hbm, ⟨35, _⟩ => ⟨S168, .i32⟩
  | .hbm, ⟨36, _⟩ => ⟨S20, .i32⟩
  | .hbm, ⟨37, _⟩ => ⟨S1x20, .i32⟩
  | .hbm, ⟨38, _⟩ => ⟨S168x1, .i32⟩
  | .hbm, ⟨39, _⟩ => ⟨S168x20, .i32⟩
  | .hbm, ⟨40, _⟩ => ⟨S168x20, .i32⟩
  | .hbm, ⟨41, _⟩ => ⟨S168x20, .i1⟩
  | .hbm, ⟨42, _⟩ => ⟨S_, .f32⟩
  | .hbm, ⟨43, _⟩ => ⟨S_, .f32⟩
  | .hbm, ⟨44, _⟩ => ⟨S168x20, .f32⟩
  | .hbm, ⟨45, _⟩ => ⟨S168x20, .f32⟩
  | .hbm, ⟨46, _⟩ => ⟨S168x20, .f32⟩
  | .hbm, ⟨47, _⟩ => ⟨S168x20, .f32⟩
  | .hbm, ⟨48, _⟩ => ⟨S168x20, .f32⟩
  | .hbm, ⟨49, _⟩ => ⟨S_, .f32⟩
  | .hbm, ⟨50, _⟩ => ⟨S168x20, .f32⟩
  | .hbm, ⟨51, _⟩ => ⟨S168x20, .f32⟩
  | .hbm, ⟨52, _⟩ => ⟨S168, .f32⟩
  | .hbm, ⟨53, _⟩ => ⟨S_, .f32⟩
  | .hbm, ⟨54, _⟩ => ⟨S168, .f32⟩
  | .hbm, ⟨55, _⟩ => ⟨S168, .f32⟩
  | .hbm, ⟨56, _⟩ => ⟨S_, .f32⟩
  | .hbm, ⟨57, _⟩ => ⟨S168, .f32⟩
  | .hbm, ⟨58, _⟩ => ⟨S168, .f32⟩
  | .hbm, ⟨59, _⟩ => ⟨S_, .f32⟩
  | .hbm, ⟨60, _⟩ => ⟨S168, .f32⟩
  | .hbm, ⟨61, _⟩ => ⟨S168, .f32⟩
  | .hbm, ⟨62, _⟩ => ⟨S168, .f32⟩
  | .hbm, ⟨63, _⟩ => ⟨S_, .f32⟩
  | .hbm, ⟨64, _⟩ => ⟨S168, .f32⟩
  | .hbm, ⟨65, _⟩ => ⟨S168, .f32⟩
  | .hbm, ⟨66, _⟩ => ⟨S524288x20, .f32⟩
  | .hbm, ⟨67, _⟩ => ⟨S20x168, .f32⟩
  | .hbm, ⟨68, _⟩ => ⟨S524288x168, .f32⟩
  | .hbm, ⟨69, _⟩ => ⟨S168x20, .f32⟩
  | .hbm, ⟨70, _⟩ => ⟨S20x168, .f32⟩
  | .hbm, ⟨71, _⟩ => ⟨S524288x168, .f32⟩
  | .hbm, ⟨72, _⟩ => ⟨S_, .f32⟩
  | .hbm, ⟨73, _⟩ => ⟨S524288x168, .f32⟩
  | .hbm, ⟨74, _⟩ => ⟨S524288x168, .f32⟩
  | .hbm, ⟨75, _⟩ => ⟨S524288x168, .f32⟩
  | .hbm, ⟨76, _⟩ => ⟨S168x20, .f32⟩
  | .hbm, ⟨77, _⟩ => ⟨S168x20, .f32⟩
  | .hbm, ⟨78, _⟩ => ⟨S_, .f32⟩
  | .hbm, ⟨79, _⟩ => ⟨S168, .f32⟩
  | .hbm, ⟨80, _⟩ => ⟨S1x168, .f32⟩
  | .hbm, ⟨81, _⟩ => ⟨S524288x168, .f32⟩
  | .hbm, ⟨82, _⟩ => ⟨S524288x168, .f32⟩
  | .hbm, ⟨83, _⟩ => ⟨S_, .f32⟩
  | .hbm, ⟨84, _⟩ => ⟨S524288x168, .f32⟩
  | .hbm, ⟨85, _⟩ => ⟨S524288x168, .f32⟩
  | .hbm, ⟨86, _⟩ => ⟨S524288x168, .f32⟩
  | .hbm, ⟨87, _⟩ => ⟨S1x168, .f32⟩
  | .hbm, ⟨88, _⟩ => ⟨S524288x168, .f32⟩
  | .hbm, ⟨89, _⟩ => ⟨S524288x168, .f32⟩
  | .hbm, ⟨90, _⟩ => ⟨S1x168, .f32⟩
  | .hbm, ⟨91, _⟩ => ⟨S524288x168, .f32⟩
  | .hbm, ⟨92, _⟩ => ⟨S524288x168, .f32⟩
  | .hbm, ⟨93, _⟩ => ⟨S_, .f32⟩
  | .hbm, ⟨94, _⟩ => ⟨S524288, .f32⟩
  | .hbm, ⟨95, _⟩ => ⟨S524288x1, .f32⟩
  | .hbm, ⟨96, _⟩ => ⟨S524288x1, .f32⟩
  | .hbm, ⟨97, _⟩ => ⟨S_, .f32⟩
  | .hbm, ⟨98, _⟩ => ⟨S524288x1, .f32⟩
  | .hbm, ⟨99, _⟩ => ⟨S524288x1, .f32⟩
  | _, _ => ⟨S524288x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_2 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_5 : Ref sig .tc := ⟨.hbm, 53, rfl⟩
abbrev main_v24 : Ref sig .tc := ⟨.hbm, 54, rfl⟩
abbrev main_v25 : Ref sig .tc := ⟨.hbm, 55, rfl⟩
abbrev main_cst_6 : Ref sig .tc := ⟨.hbm, 56, rfl⟩
abbrev main_v26 : Ref sig .tc := ⟨.hbm, 57, rfl⟩
abbrev main_v27 : Ref sig .tc := ⟨.hbm, 58, rfl⟩
abbrev main_cst_7 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_8 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_9 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_10 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_11 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_12 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_13 : Ref sig .tc := ⟨.hbm, 97, rfl⟩
abbrev main_v60 : Ref sig .tc := ⟨.hbm, 98, rfl⟩
abbrev main_v61 : Ref sig .tc := ⟨.hbm, 99, rfl⟩

abbrev nD : Nat := 1
abbrev τ : Topo := Topo.v7x

variable {F : FTy → Type} [FloatOps F]

class Facts₀ : Prop where
  reducesTo_S168_S_d0 : S168.ReducesTo [0] S_
  h_S_ : 0 < S_.numel
  bcast_S_S1 : S_.BroadcastsInDim S1 (![] : Fin 0 → Fin S1.rank)
  bcast_S1_S168_0 : S1.BroadcastsInDim S168 (![0] : Fin 1 → Fin S168.rank)
  bcast_S_S168 : S_.BroadcastsInDim S168 (![] : Fin 0 → Fin S168.rank)
  bcast_S20_S1x20_1 : S20.BroadcastsInDim S1x20 (![1] : Fin 1 → Fin S1x20.rank)
  bcast_S168_S168x1_0 : S168.BroadcastsInDim S168x1 (![0] : Fin 1 → Fin S168x1.rank)
  bcast_S1x20_S168x20_0_1 : S1x20.BroadcastsInDim S168x20 (![0, 1] : Fin 2 → Fin S168x20.rank)
  bcast_S168x1_S168x20_0_1 : S168x1.BroadcastsInDim S168x20 (![0, 1] : Fin 2 → Fin S168x20.rank)
  bcast_S_S168x20 : S_.BroadcastsInDim S168x20 (![] : Fin 0 → Fin S168x20.rank)
  transposes_S168x20_S20x168_1_0 : S168x20.Transposes [1, 0] S20x168
  bcast_S_S524288x168 : S_.BroadcastsInDim S524288x168 (![] : Fin 0 → Fin S524288x168.rank)
  reducesTo_S168x20_S168_d1 : S168x20.ReducesTo [1] S168
  bcast_S168_S1x168_1 : S168.BroadcastsInDim S1x168 (![1] : Fin 1 → Fin S1x168.rank)
  bcast_S1x168_S524288x168_0_1 : S1x168.BroadcastsInDim S524288x168 (![0, 1] : Fin 2 → Fin S524288x168.rank)
  reducesTo_S524288x168_S524288_d1 : S524288x168.ReducesTo [1] S524288
  bcast_S524288_S524288x1_0 : S524288.BroadcastsInDim S524288x1 (![0] : Fin 1 → Fin S524288x1.rank)
  bcast_S_S524288x1 : S_.BroadcastsInDim S524288x1 (![] : Fin 0 → Fin S524288x1.rank)
  dot_S524288x20_S20x168_S524288x168_1_0_0_1_n_n_wf : DotDims.WF S524288x20 S20x168 S524288x168 [1] [0] [0] [1] [] []

variable [Facts₀]

def dot_S524288x20_S20x168_S524288x168_1_0_0_1_n_n : DotDims S524288x20 S20x168 S524288x168 where
  lhsContracting := [1]
  rhsContracting := [0]
  lhsNonContracting := [0]
  rhsNonContracting := [1]
  lhsBatch := []
  rhsBatch := []
  wf := dot_S524288x20_S20x168_S524288x168_1_0_0_1_n_n_wf

class Facts : Prop extends Facts₀ where

variable [Facts]
-- ==== Proof.MixSpec.lean ====
/-
  The mixture log-density of one sample row, as a function on the extended reals, and the one algebraic law that
  joins the two programs.

  For a row x of 20 coordinates and 168 components k, each with a column a(·, k) of reciprocal variances, a column
  b(·, k) of means scaled by them, an offset off(k) and a scale sc(k):

      quad(k)  =  Σ_d (x_d · x_d) · a(d, k)  −  2 · Σ_d x_d · b(d, k)  +  off(k)
      value    =  log ( Σ_k sc(k) · exp(−½ · quad(k)) )  +  c

  with 2, −½ and c the three single-precision constants both programs spell with the same words. One program
  multiplies the exponential by the product of a normalising factor and a weight; the other multiplies the
  exponential by the factor first and by the weight afterwards, and adds its sum to a zero. Multiplication of
  extended reals is commutative and associative everywhere, the infinities included, so the two agree term by term.
-/
import Idealize.ShloMosaic.PureOps.Ideal.Laws

noncomputable section

namespace Cert.Mixture

open Idealize.ShloMosaic

/-- The quadratic form of a row against one component: three terms. -/
def quad (xr a b : Fin 20 → EReal) (off : EReal) : EReal :=
  (∑ d : Fin 20, (xr d * xr d) * a d) - Ideal.ofBits .f32 0x40000000#32 * (∑ d : Fin 20, xr d * b d) + off

/-- The exponential factor of a row against component `k`. -/
def expTerm (xr : Fin 20 → EReal) (a b : Fin 20 → Fin 168 → EReal) (off : Fin 168 → EReal) (k : Fin 168) : EReal :=
  Ideal.exp (Ideal.ofBits .f32 0xBF000000#32 * quad xr (fun d => a d k) (fun d => b d k) (off k))

/-- The log-density of a row: the logarithm of the scaled exponentials' sum, plus the constant. -/
def logDensity (xr : Fin 20 → EReal) (a b : Fin 20 → Fin 168 → EReal) (off sc : Fin 168 → EReal) : EReal :=
  Ideal.log (∑ k : Fin 168, sc k * expTerm xr a b off k) + Ideal.ofBits .f32 0xC19307B9#32

/-- Scaling each exponential by the factor and then by the weight, summed from zero, is scaling it by the product of
    factor and weight: multiplication commutes and associates on every extended real. -/
theorem sum_factor_then_weight (sg w e : Fin 168 → EReal) :
    Ideal.ofBits .f32 0x00000000#32 + ∑ k : Fin 168, (sg k * e k) * w k = ∑ k : Fin 168, (sg k * w k) * e k := by
  rw [Ideal.ofBits_zero_f32, zero_add]
  exact Finset.sum_congr rfl fun k _ => mul_right_comm (sg k) (e k) (w k)

end Cert.Mixture

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowSum.lean ====
/-
  A general lemma for reading a kernel's lane reduction at an index, at the ideal instance.

  * `multiReduction_add_rows_apply`: the sum of an [R, K] single-precision vector along its last axis, accumulated
    from the zero word, read at row r, is the sum over k of the vector at (r, k).
-/
import Idealize.ShloMosaic.PureOps.Ideal.Laws
import Idealize.ShloMosaic.Lib.ValueIdx

noncomputable section

namespace Cert.LibRowSum

open Idealize.ShloMosaic Idealize.ShloMosaic.ValueIdx

/-- A row-wise add reduction of an [R, K] vector read at row r: ∑ₖ v (r, k). -/
theorem multiReduction_add_rows_apply {R K : ℕ} (v : FVec Ideal ⟨2, ![R, K]⟩ .f32)
    (h : (⟨2, ![R, K]⟩ : Shape).Reduces [1] ⟨1, ![R]⟩) (hφ : FKind.Formats .f32)
    (hacc : (0x00000000#32 : BitVec 32) = FKind.add.neutral .f32 hφ) (r : Fin R) :
    multiReduction .add [1] ⟨1, ![R]⟩ v 0x00000000#32 h hφ hacc (ix1 r) = ∑ k : Fin K, v (ix2 r k) := by
  refine (Ideal.multiReduction_add_single v _ h hφ hacc (ix1 r)).trans ?_
  refine Finset.sum_congr rfl fun k _ => ?_
  exact congrArg v (funext fun a => Fin.ext (by match a with | ⟨0, _⟩ => rfl | ⟨1, _⟩ => rfl))

end Cert.LibRowSum

end
-- ==== Proof.PayloadAt.lean ====
/-
  The kernel body's stored value, read at an entry.

  At a grid point the body loads a block of 2048 sample rows and the four whole tables, and stores one column of 2048
  values. Entry (r, 0) of that column is the mixture log-density of the block's row r: the two matrix products into
  zero accumulators are sums over the 20 coordinates, the row tables are broadcast over the 2048 rows, the lane
  reduction from zero is the sum over the 168 components, and the recasts of a table to its own shape change nothing.
-/
import proofs.«166626_j6116033429850_1_alg».proof.Proof.Gen.KernelIdeal.Skeleton
import proofs.«166626_j6116033429850_1_alg».proof.Proof.MixSpec
import proofs.«166626_j6116033429850_1_alg».proof.Proof.LibPlainDot
import proofs.«166626_j6116033429850_1_alg».proof.Proof.LibRowSum
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-! ### The matrix product's index maps: output (row, column), contraction over the one shared axis -/

theorem contr_rank : (dot_S2048x20_S20x168_S2048x168_1_0_0_1_n_n).contr.rank = 1 := rfl
theorem contr_size : (dot_S2048x20_S20x168_S2048x168_1_0_0_1_n_n).contr.size ⟨0, by decide⟩ = 20 := rfl

theorem lhs_row (i : S2048x168.Idx) (q : (dot_S2048x20_S20x168_S2048x168_1_0_0_1_n_n).contr.Idx) :
    ((dot_S2048x20_S20x168_S2048x168_1_0_0_1_n_n).lhsIdx i q 0).val = (i 0).val := by
  simp [DotDims.lhsIdx, dot_S2048x20_S20x168_S2048x168_1_0_0_1_n_n]; rfl
theorem lhs_contr (i : S2048x168.Idx) (q : (dot_S2048x20_S20x168_S2048x168_1_0_0_1_n_n).contr.Idx) :
    ((dot_S2048x20_S20x168_S2048x168_1_0_0_1_n_n).lhsIdx i q 1).val = (q ⟨0, by decide⟩).val := by
  simp [DotDims.lhsIdx, dot_S2048x20_S20x168_S2048x168_1_0_0_1_n_n]; rfl
theorem rhs_contr (i : S2048x168.Idx) (q : (dot_S2048x20_S20x168_S2048x168_1_0_0_1_n_n).contr.Idx) :
    ((dot_S2048x20_S20x168_S2048x168_1_0_0_1_n_n).rhsIdx i q 0).val = (q ⟨0, by decide⟩).val := by
  simp [DotDims.rhsIdx, dot_S2048x20_S20x168_S2048x168_1_0_0_1_n_n]; rfl
theorem rhs_col (i : S2048x168.Idx) (q : (dot_S2048x20_S20x168_S2048x168_1_0_0_1_n_n).contr.Idx) :
    ((dot_S2048x20_S20x168_S2048x168_1_0_0_1_n_n).rhsIdx i q 1).val = (i 1).val := by
  simp [DotDims.rhsIdx, dot_S2048x20_S20x168_S2048x168_1_0_0_1_n_n]; rfl

/-- A block of rows times a whole table, into the zero accumulator, at (r, k): the sum over the 20 coordinates. -/
theorem product_apply (l : FVec Ideal S2048x20 .f32) (t : FVec Ideal S20x168 .f32) (r : Fin 2048) (k : Fin 168) :
    matmul dot_S2048x20_S20x168_S2048x168_1_0_0_1_n_n (some .fp32) l t (constant S2048x168 .f32 0x00000000#32) (ix2 r k)
      = ∑ d : Fin 20, l (ix2 r d) * t (ix2 d k) :=
  Cert.Lib.matmul_plain_apply dot_S2048x20_S20x168_S2048x168_1_0_0_1_n_n contr_rank contr_size lhs_row lhs_contr rhs_contr rhs_col
    (some .fp32) l t r k

/-- A one-row table, recast to its own shape and broadcast over the block's rows, at (r, k): the table at (0, k). -/
theorem row_table_apply (v : FVec Ideal S1x168 .f32) (r : Fin 2048) (k : Fin 168) :
    broadcastTo S2048x168 (shapeCast S1x168 v shapeCasts_S1x168_S1x168) broadcasts_S1x168_S2048x168 (ix2 r k) = v (ix2 (0 : Fin 1) k) := by
  rw [broadcastTo_1b_ab_apply, shapeCast_self]

/-- The stored column at (r, 0): the log-density of the block's row r against the four tables. -/
theorem pay_apply (x0 : Vec Ideal S2048x20 .f32) (x1 x2 : Vec Ideal S20x168 .f32) (x3 x4 : Vec Ideal S1x168 .f32)
    (r : Fin 2048) (u : Fin 1) :
    k0_pay1 x0 x1 x2 x3 x4 (ix2 r u)
      = Mixture.logDensity (fun d => x0 (ix2 r d)) (fun d k => x1 (ix2 d k)) (fun d k => x2 (ix2 d k))
          (fun k => x3 (ix2 (0 : Fin 1) k)) (fun k => x4 (ix2 (0 : Fin 1) k)) := by
  unfold k0_pay1 Mixture.logDensity
  show Ideal.log (shapeCast S2048x1 (multiReduction (F := Ideal) (φ := .f32) .add [1] S2048 _ 0x00000000#32 reduces_S2048x168_S2048 _ _)
      shapeCasts_S2048_S2048x1 (ix2 r u)) + Ideal.ofBits .f32 0xC19307B9#32 = _
  rw [Cert.Lib.shapeCast_a_a1_apply]
  refine congrArg (fun s => Ideal.log s + Ideal.ofBits .f32 0xC19307B9#32) ?_
  refine (Cert.LibRowSum.multiReduction_add_rows_apply _ reduces_S2048x168_S2048 _ _ r).trans ?_
  refine Finset.sum_congr rfl fun k _ => ?_
  unfold Mixture.expTerm Mixture.quad
  show broadcastTo S2048x168 (shapeCast S1x168 x4 shapeCasts_S1x168_S1x168) broadcasts_S1x168_S2048x168 (ix2 r k)
      * Ideal.exp (Ideal.ofBits .f32 0xBF000000#32
        * (matmul (F := Ideal) dot_S2048x20_S20x168_S2048x168_1_0_0_1_n_n (some .fp32) (mulf x0 x0) (shapeCast S20x168 x1 shapeCasts_S20x168_S20x168)
              (constant S2048x168 .f32 0x00000000#32) (ix2 r k)
            - Ideal.ofBits .f32 0x40000000#32
              * matmul (F := Ideal) dot_S2048x20_S20x168_S2048x168_1_0_0_1_n_n (some .fp32) x0 (shapeCast S20x168 x2 shapeCasts_S20x168_S20x168)
                  (constant S2048x168 .f32 0x00000000#32) (ix2 r k)
            + broadcastTo S2048x168 (shapeCast S1x168 x3 shapeCasts_S1x168_S1x168) broadcasts_S1x168_S2048x168 (ix2 r k))) = _
  rw [row_table_apply, row_table_apply, product_apply, product_apply, shapeCast_self, shapeCast_self]
  rfl

end Cert.KernelIdeal.Payload

end
-- ==== Proof.KernelArray.lean ====
/-
  The kernel's result array after the run, as one function of the arrays the region finds.

  The grid has 256 points. Point t stages rows 2048·t … 2048·t + 2047 of the samples and the four tables whole, and
  writes back rows 2048·t … 2048·t + 2047 of the one result column. What it writes at row r of its block is the
  mixture log-density of sample row 2048·t + r against the tables; the 256 blocks tile the result column, so the
  column ends holding, at every row n, the log-density of sample row n.
-/
import proofs.«166626_j6116033429850_1_alg».proof.Proof.Gen.KernelIdeal.Value
import proofs.«166626_j6116033429850_1_alg».proof.Proof.PayloadAt

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The sample row an entry of the result column belongs to. -/
def rowOf (i : S524288x1.Idx) : Fin 524288 := ⟨(i 0).val, (i 0).isLt⟩

/-- The result column as a function of the samples and the four tables: at each entry the log-density of its row. -/
def density (x : S524288x20.Idx → EReal) (a b : S20x168.Idx → EReal) (off sc : S1x168.Idx → EReal) : S524288x1.Idx → EReal :=
  fun i => Mixture.logDensity (fun d => x (ix2 (rowOf i) d)) (fun d k => a (ix2 d k)) (fun d k => b (ix2 d k))
    (fun k => off (ix2 (0 : Fin 1) k)) (fun k => sc (ix2 (0 : Fin 1) k))

/-- The printed index maps over the grid: the sample and result windows move one block of rows per point, the
    tables stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of point t's sample block is sample row 2048·t + r. -/
theorem read_rows (c : Dev nD) (t : Fin cfg0.N) (r : Fin 2048) (d : Fin 20) (n : Fin 524288) (hn : n.val = t.val * 2048 + r.val) :
    iblk m c 0 t (ix2 r d) = V m c main_arg0 (ix2 n d) := by
  show V m c main_arg0 (((cfg0.win 0).blk t).view.emb (ix2 r d)) = V m c main_arg0 (ix2 n d)
  refine congrArg (V m c main_arg0) (funext fun a => Fin.ext ?_)
  obtain ⟨e0, e1, -⟩ := idx_facts t
  match a with
  | ⟨0, _⟩ => show win0_0.index t (0 : Fin 2) * 2048 + 1 * r.val = n.val; omega
  | ⟨1, _⟩ => show win0_0.index t (1 : Fin 2) * 20 + 1 * d.val = d.val; omega

/-- Every point's block of the table of reciprocal variances is the whole table. -/
theorem read_a (c : Dev nD) (t : Fin cfg0.N) (d : Fin 20) (k : Fin 168) : iblk m c 1 t (ix2 d k) = V m c main_v38 (ix2 d k) := by
  show V m c main_v38 (((cfg0.win 1).blk t).view.emb (ix2 d k)) = V m c main_v38 (ix2 d k)
  refine congrArg (V m c main_v38) (funext fun a => Fin.ext ?_)
  obtain ⟨-, -, e0, e1, -⟩ := idx_facts t
  match a with
  | ⟨0, _⟩ => show win0_1.index t (0 : Fin 2) * 20 + 1 * d.val = d.val; omega
  | ⟨1, _⟩ => show win0_1.index t (1 : Fin 2) * 168 + 1 * k.val = k.val; omega

/-- Every point's block of the table of scaled means is the whole table. -/
theorem read_b (c : Dev nD) (t : Fin cfg0.N) (d : Fin 20) (k : Fin 168) : iblk m c 2 t (ix2 d k) = V m c main_v39 (ix2 d k) := by
  show V m c main_v39 (((cfg0.win 2).blk t).view.emb (ix2 d k)) = V m c main_v39 (ix2 d k)
  refine congrArg (V m c main_v39) (funext fun a => Fin.ext ?_)
  obtain ⟨-, -, -, -, e0, e1, -⟩ := idx_facts t
  match a with
  | ⟨0, _⟩ => show win0_2.index t (0 : Fin 2) * 20 + 1 * d.val = d.val; omega
  | ⟨1, _⟩ => show win0_2.index t (1 : Fin 2) * 168 + 1 * k.val = k.val; omega

/-- Every point's block of the row of offsets is the whole row. -/
theorem read_off (c : Dev nD) (t : Fin cfg0.N) (k : Fin 168) : iblk m c 3 t (ix2 (0 : Fin 1) k) = V m c main_v40 (ix2 (0 : Fin 1) k) := by
  show V m c main_v40 (((cfg0.win 3).blk t).view.emb (ix2 (0 : Fin 1) k)) = V m c main_v40 (ix2 (0 : Fin 1) k)
  refine congrArg (V m c main_v40) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 168 + 1 * k.val = k.val; omega

/-- Every point's block of the row of scales is the whole row. -/
theorem read_sc (c : Dev nD) (t : Fin cfg0.N) (k : Fin 168) : iblk m c 4 t (ix2 (0 : Fin 1) k) = V m c main_v41 (ix2 (0 : Fin 1) k) := by
  show V m c main_v41 (((cfg0.win 4).blk t).view.emb (ix2 (0 : Fin 1) k)) = V m c main_v41 (ix2 (0 : Fin 1) k)
  refine congrArg (V m c main_v41) (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 168 + 1 * k.val = k.val; omega

/-- What point t writes back is block t of the result column's function. -/
theorem flushed_eq (c : Dev nD) (t : Fin cfg0.N) :
    (dats m 0 c).flushed 5 t = ((cfg0.win 5).blk t).view.read (Elt Ideal)
      (density (V m c main_arg0) (V m c main_v38) (V m c main_v39) (V m c main_v40) (V m c main_v41)) := by
  rw [flushed5]
  unfold out0_5
  rw [View.canon_unit_zero origin]
  simp only [View.ld_unit_zero (S := S2048x20) origin, View.ld_unit_zero (S := S20x168) origin, View.ld_unit_zero (S := S1x168) origin]
  funext j
  obtain ⟨r, u, rfl⟩ : ∃ (r : Fin 2048) (u : Fin 1), j = ix2 r u := ⟨j 0, j 1, eq_ix2 j⟩
  show k0_pay1 (iblk m c 0 t) (iblk m c 1 t) (iblk m c 2 t) (iblk m c 3 t) (iblk m c 4 t) (ix2 r u)
    = density (V m c main_arg0) (V m c main_v38) (V m c main_v39) (V m c main_v40) (V m c main_v41)
        (((cfg0.win 5).blk t).view.emb (ix2 r u))
  refine (Payload.pay_apply (iblk m c 0 t) (iblk m c 1 t) (iblk m c 2 t) (iblk m c 3 t) (iblk m c 4 t) r u).trans ?_
  unfold density
  have hrow : (rowOf (((cfg0.win 5).blk t).view.emb (ix2 r u))).val = t.val * 2048 + r.val := by
    obtain ⟨-, -, -, -, -, -, -, -, -, -, e0, -⟩ := idx_facts t
    show win0_5.index t (0 : Fin 2) * 2048 + 1 * r.val = _
    omega
  have e0 : (fun d => iblk m c 0 t (ix2 r d))
      = fun d => V m c main_arg0 (ix2 (rowOf (((cfg0.win 5).blk t).view.emb (ix2 r u))) d) :=
    funext fun d => read_rows m c t r d _ hrow
  have e1 : (fun d k => iblk m c 1 t (ix2 d k)) = fun d k => V m c main_v38 (ix2 d k) :=
    funext fun d => funext fun k => read_a m c t d k
  have e2 : (fun d k => iblk m c 2 t (ix2 d k)) = fun d k => V m c main_v39 (ix2 d k) :=
    funext fun d => funext fun k => read_b m c t d k
  have e3 : (fun k => iblk m c 3 t (ix2 (0 : Fin 1) k)) = fun k => V m c main_v40 (ix2 (0 : Fin 1) k) :=
    funext fun k => read_off m c t k
  have e4 : (fun k => iblk m c 4 t (ix2 (0 : Fin 1) k)) = fun k => V m c main_v41 (ix2 (0 : Fin 1) k) :=
    funext fun k => read_sc m c t k
  rw [e0, e1, e2, e3, e4]

/-- Every entry of the result column lies in the block of the point its row's block number names. -/
theorem cover (i : S524288x1.Idx) : ∃ t : Fin cfg0.N, (cfg0.win 5).flush t = true ∧ i ∈ ((cfg0.win 5).blk t).view.set := by
  have h0 : (i 0).val < 524288 := (i 0).isLt
  have h1 : (i 1).val < 1 := (i 1).isLt
  have hN : cfg0.N = 256 := N_0
  have ht : (i 0).val / 2048 < cfg0.N := by rw [hN]; omega
  refine ⟨⟨(i 0).val / 2048, ht⟩, flush0_5 _, ?_⟩
  show i ∈ ((View.whole main_v42).slice (win0_5.rect ⟨(i 0).val / 2048, ht⟩)).set
  rw [View.set_slice_whole, Rect.mem_set_unit]
  obtain ⟨-, -, -, -, -, -, -, -, -, -, e0, e1⟩ := idx_facts ⟨(i 0).val / 2048, ht⟩
  intro a
  match a with
  | ⟨0, _⟩ =>
    show win0_5.index ⟨(i 0).val / 2048, ht⟩ (0 : Fin 2) * 2048 ≤ (i 0).val
      ∧ (i 0).val < win0_5.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_5.index ⟨(i 0).val / 2048, ht⟩ (1 : Fin 2) * 1 ≤ (i 1).val
      ∧ (i 1).val < win0_5.index ⟨(i 0).val / 2048, ht⟩ (1 : Fin 2) * 1 + 1
    rw [e1]; omega

/-- The result column after the run: the log-density of every sample row against the tables the region finds. -/
theorem final (c : Dev nD) : (dats m 0 c).arrAt 5 cfg0.N
    = density (V m c main_arg0) (V m c main_v38) (V m c main_v39) (V m c main_v40) (V m c main_v41) :=
  (dats m 0 c).arrAt_eq_of_cover 5 _ (fun t _ => flushed_eq m c t) cover

/-- The kernel's run with its result named: the result column at the log-densities, the arguments unchanged. -/
theorem run : θ_run defs (onTc (τ := τ) (main (F := Ideal))) ⟨m, fun _ => 0, ρ⟩ fun r => ∀ c : Dev nD,
      r.2.mem ((c : Thread nD τ).loc main_v42)
        = density (V m c main_arg0) (V m c main_v38) (V m c main_v39) (V m c main_v40) (V m c main_v41)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.RefLine.lean ====
/-
  The reference's @main as one straight line of host operations, and its run.

  The reference computes, on the host: the softmax weights of `alpha`; the group index k / 8 of each of the 168
  components (an integer floor division, outlined as a function that itself calls a select); the reciprocal of the
  covariance entries (the mask of "coordinate below the group index" selects between two equal constants); the
  normalising factor of each component (three powers); and then, over all 524288 samples at once, two matrix
  products with the transposed tables, the quadratic form, the exponential, the two scalings, the sum over the
  components, the logarithm and the additive constant.

  Every outlined function is listed inline at its call, over the buffers the call names. A straight line of host
  operations terminates from any memory, and every buffer ends at the fold of the operations over the launch
  contents.
-/
import proofs.«166626_j6116033429850_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-- The softmax weights of `alpha` (`main_v9`), and the component numbers 0 … 167 with the divisor 8. -/
abbrev weightOps : List (HloOp τ sig (Elt F)) :=
  [ nullary main_cst (constant S_ .f32 0xFF800000#32),
    binary main_arg1 main_cst main_v0 (fun x v => Host.reduce FloatOps.maximumf x v reducesTo_S168_S_d0 h_S_),
    nullary main_cst_0 (constant S_ .f32 0xFF800000#32),
    binary main_cst_0 main_v0 main_v1 maximumf,
    unary main_v1 main_v2 (broadcastInDim S1 ![] bcast_S_S1),
    unary main_v2 main_v3 (broadcastInDim S168 ![0] bcast_S1_S168_0),
    binary main_arg1 main_v3 main_v4 subf,
    unary main_v4 main_v5 Host.exp,
    nullary main_cst_1 (constant S_ .f32 0x00000000#32),
    binary main_v5 main_cst_1 main_v6 (fun x v => Host.reduceAdd x v reducesTo_S168_S_d0 h_S_),
    unary main_v6 main_v7 (broadcastInDim S1 ![] bcast_S_S1),
    unary main_v7 main_v8 (broadcastInDim S168 ![0] bcast_S1_S168_0),
    binary main_v5 main_v8 main_v9 Host.divf,
    nullary main_v10 (iotaInDim S168 32 0),
    nullary main_c (constantI S_ 32 8#32) ]

/-- The group index of each component, its number divided by 8 rounding down (`main_v11`): the outlined floor
    division, with the select it calls, over the buffers of its one call. -/
abbrev groupOps : List (HloOp τ sig (Elt F)) :=
  [ TRef.unary (.of main_c : TRef sig ⟨S_, .i32⟩) main_call0.v0 id,
    TRef.unary main_call0.v0 main_call0.v1 (broadcastInDim S168 ![] bcast_S_S168),
    TRef.binary (.of main_v10 : TRef sig ⟨S168, .i32⟩) main_call0.v1 main_call0.v2 Host.divsi,
    TRef.unary (.of main_v10 : TRef sig ⟨S168, .i32⟩) main_call0.v3 signi,
    TRef.unary main_call0.v0 main_call0.v4 signi,
    TRef.unary main_call0.v4 main_call0.v5 (broadcastInDim S168 ![] bcast_S_S168),
    TRef.binary main_call0.v3 main_call0.v5 main_call0.v6 (cmpi .ne),
    TRef.unary main_call0.v0 main_call0.v7 (broadcastInDim S168 ![] bcast_S_S168),
    TRef.binary (.of main_v10 : TRef sig ⟨S168, .i32⟩) main_call0.v7 main_call0.v8 Host.remsi,
    TRef.nullary main_call0.c (constantI S_ 32 0#32),
    TRef.unary main_call0.c main_call0.v9 (broadcastInDim S168 ![] bcast_S_S168),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S168 ![] bcast_S_S168),
    TRef.binary main_call0.v2 main_call0.v12 main_call0.v13 subi,
    TRef.ternary main_call0.v11 main_call0.v13 main_call0.v2 main_call0.call0.v0 select ]

/-- The reciprocal covariances (`main_v22`: the mask "coordinate below the group index" selects between two equal
    constants, the covariance times the selected constant is inverted) and the normalising factors (`main_v32`:
    three powers of constants to the group index). -/
abbrev factorOps : List (HloOp τ sig (Elt F)) :=
  [ nullary main_v12 (iotaInDim S20 32 0),
    unary main_v12 main_v13 (broadcastInDim S1x20 ![1] bcast_S20_S1x20_1),
    unary main_v11 main_v14 (broadcastInDim S168x1 ![0] bcast_S168_S168x1_0),
    unary main_v13 main_v15 (broadcastInDim S168x20 ![0, 1] bcast_S1x20_S168x20_0_1),
    unary main_v14 main_v16 (broadcastInDim S168x20 ![0, 1] bcast_S168x1_S168x20_0_1),
    binary main_v15 main_v16 main_v17 (cmpi .slt),
    nullary main_cst_2 (constant S_ .f32 0x3F800000#32),
    nullary main_cst_3 (constant S_ .f32 0x3F800000#32),
    TRef.unary (.of main_cst_2 : TRef sig ⟨S_, .f32⟩) main_call1.v0 (broadcastInDim S168x20 ![] bcast_S_S168x20),
    TRef.unary (.of main_cst_3 : TRef sig ⟨S_, .f32⟩) main_call1.v1 (broadcastInDim S168x20 ![] bcast_S_S168x20),
    TRef.ternary (.of main_v17 : TRef sig ⟨S168x20, .i1⟩) main_call1.v0 main_call1.v1 main_call1.v2 select,
    unary main_v18 main_v19 id,
    binary main_arg3 main_v19 main_v20 mulf,
    nullary main_cst_4 (constant S_ .f32 0x3F800000#32),
    unary main_cst_4 main_v21 (broadcastInDim S168x20 ![] bcast_S_S168x20),
    binary main_v21 main_v20 main_v22 Host.divf,
    unary main_v11 main_v23 (sitofp .f32),
    nullary main_cst_5 (constant S_ .f32 0x3F800000#32),
    unary main_cst_5 main_v24 (broadcastInDim S168 ![] bcast_S_S168),
    binary main_v24 main_v23 main_v25 Host.powf,
    nullary main_cst_6 (constant S_ .f32 0x41A00000#32),
    unary main_cst_6 main_v26 (broadcastInDim S168 ![] bcast_S_S168),
    binary main_v26 main_v23 main_v27 subf,
    nullary main_cst_7 (constant S_ .f32 0x3DCCCCCD#32),
    unary main_cst_7 main_v28 (broadcastInDim S168 ![] bcast_S_S168),
    binary main_v28 main_v27 main_v29 Host.powf,
    binary main_v25 main_v29 main_v30 mulf,
    nullary main_cst_8 (constant S_ .f32 0xBF000000#32),
    unary main_cst_8 main_v31 (broadcastInDim S168 ![] bcast_S_S168),
    binary main_v30 main_v31 main_v32 Host.powf ]

/-- Over the samples: the two products with the transposed tables, the quadratic form's first two terms, and the
    per-component offset broadcast over the samples. -/
abbrev quadOps : List (HloOp τ sig (Elt F)) :=
  [ binary main_arg0 main_arg0 main_v33 mulf,
    unary main_v22 main_v34 (transpose S20x168 [1, 0] · transposes_S168x20_S20x168_1_0),
    binary main_v33 main_v34 main_v35 (fun l r => Host.dotGeneral dot_S524288x20_S20x168_S524288x168_1_0_0_1_n_n none l r),
    binary main_arg2 main_v22 main_v36 mulf,
    unary main_v36 main_v37 (transpose S20x168 [1, 0] · transposes_S168x20_S20x168_1_0),
    binary main_arg0 main_v37 main_v38 (fun l r => Host.dotGeneral dot_S524288x20_S20x168_S524288x168_1_0_0_1_n_n none l r),
    nullary main_cst_9 (constant S_ .f32 0x40000000#32),
    unary main_cst_9 main_v39 (broadcastInDim S524288x168 ![] bcast_S_S524288x168),
    binary main_v39 main_v38 main_v40 mulf,
    binary main_v35 main_v40 main_v41 subf,
    binary main_arg2 main_arg2 main_v42 mulf,
    binary main_v42 main_v22 main_v43 mulf,
    nullary main_cst_10 (constant S_ .f32 0x00000000#32),
    binary main_v43 main_cst_10 main_v44 (fun x v => Host.reduceAdd x v reducesTo_S168x20_S168_d1 h_S_),
    unary main_v44 main_v45 (broadcastInDim S1x168 ![1] bcast_S168_S1x168_1),
    unary main_v45 main_v46 (broadcastInDim S524288x168 ![0, 1] bcast_S1x168_S524288x168_0_1) ]

/-- Over the samples: the offset added, the exponential of minus half the quadratic form, scaled by the normalising
    factor and then by the weight, the sum over the components, the logarithm, the additive constant. -/
abbrev densityOps : List (HloOp τ sig (Elt F)) :=
  [ binary main_v41 main_v46 main_v47 addf,
    nullary main_cst_11 (constant S_ .f32 0xBF000000#32),
    unary main_cst_11 main_v48 (broadcastInDim S524288x168 ![] bcast_S_S524288x168),
    binary main_v48 main_v47 main_v49 mulf,
    unary main_v49 main_v50 Host.exp,
    unary main_v32 main_v51 (broadcastInDim S1x168 ![1] bcast_S168_S1x168_1),
    unary main_v51 main_v52 (broadcastInDim S524288x168 ![0, 1] bcast_S1x168_S524288x168_0_1),
    binary main_v52 main_v50 main_v53 mulf,
    unary main_v9 main_v54 (broadcastInDim S1x168 ![1] bcast_S168_S1x168_1),
    unary main_v54 main_v55 (broadcastInDim S524288x168 ![0, 1] bcast_S1x168_S524288x168_0_1),
    binary main_v53 main_v55 main_v56 mulf,
    nullary main_cst_12 (constant S_ .f32 0x00000000#32),
    binary main_v56 main_cst_12 main_v57 (fun x v => Host.reduceAdd x v reducesTo_S524288x168_S524288_d1 h_S_),
    unary main_v57 main_v58 (broadcastInDim S524288x1 ![0] bcast_S524288_S524288x1_0),
    unary main_v58 main_v59 Host.log,
    nullary main_cst_13 (constant S_ .f32 0xC19307B9#32),
    unary main_cst_13 main_v60 (broadcastInDim S524288x1 ![] bcast_S_S524288x1),
    binary main_v59 main_v60 main_v61 addf ]

/-- The operations that compute the component tables from `alpha`, `mu` and `cov`. -/
abbrev tableOps : List (HloOp τ sig (Elt F)) := weightOps ++ (groupOps ++ factorOps)
/-- The operations over the samples. -/
abbrev sampleOps : List (HloOp τ sig (Elt F)) := quadOps ++ densityOps
/-- The whole line: the tables, then the samples. -/
abbrev ops : List (HloOp τ sig (Elt F)) := tableOps ++ sampleOps

-- about a hundred binds re-associated: the rewrite under the chain recurses once per statement
set_option maxRecDepth 4096 in
set_option maxHeartbeats 4000000 in
/-- @main is that straight line: its two parts in order, the outlined functions unfolded at their calls. -/
theorem main_eq (c : Dev nD) : main (F := F) c = seq ops := by
  simp only [main, main_part0, main_part1, fn_floor_divide.body, fn_where.body, fn_where_0.body, ops, tableOps, sampleOps,
    weightOps, groupOps, factorOps, quadOps, densityOps, List.cons_append, List.nil_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem weightOps_sub : (weightOps : List (HloOp τ sig (Elt F))).Forall fun op => op.bufs ⊆ tcRefs τ sig :=
  ⟨nullary_bufs_sub .., binary_bufs_sub .., nullary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., nullary_bufs_sub .., nullary_bufs_sub ..⟩

theorem groupOps_sub : (groupOps : List (HloOp τ sig (Elt F))).Forall fun op => op.bufs ⊆ tcRefs τ sig :=
  ⟨unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..⟩

theorem factorOps_sub : (factorOps : List (HloOp τ sig (Elt F))).Forall fun op => op.bufs ⊆ tcRefs τ sig :=
  ⟨nullary_bufs_sub .., unary_bufs_sub .., unary_bufs_sub .., unary_bufs_sub .., unary_bufs_sub .., binary_bufs_sub ..,
    nullary_bufs_sub .., nullary_bufs_sub ..,
    unary_bufs_sub .., unary_bufs_sub .., ternary_bufs_sub ..,
    unary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., binary_bufs_sub .., nullary_bufs_sub .., unary_bufs_sub ..,
    binary_bufs_sub ..⟩

theorem quadOps_sub : (quadOps : List (HloOp τ sig (Elt F))).Forall fun op => op.bufs ⊆ tcRefs τ sig :=
  ⟨binary_bufs_sub .., unary_bufs_sub .., binary_bufs_sub .., binary_bufs_sub .., unary_bufs_sub .., binary_bufs_sub ..,
    nullary_bufs_sub .., unary_bufs_sub .., binary_bufs_sub .., binary_bufs_sub .., binary_bufs_sub .., binary_bufs_sub ..,
    nullary_bufs_sub .., binary_bufs_sub .., unary_bufs_sub .., unary_bufs_sub ..⟩

theorem densityOps_sub : (densityOps : List (HloOp τ sig (Elt F))).Forall fun op => op.bufs ⊆ tcRefs τ sig :=
  ⟨binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., nullary_bufs_sub .., binary_bufs_sub .., unary_bufs_sub ..,
    unary_bufs_sub .., nullary_bufs_sub .., unary_bufs_sub .., binary_bufs_sub ..⟩

/-- A property of every operation of two lines holds of every operation of their concatenation. -/
theorem forall_append {p : HloOp τ sig (Elt F) → Prop} {l₁ l₂ : List (HloOp τ sig (Elt F))} (h₁ : l₁.Forall p) (h₂ : l₂.Forall p) :
    (l₁ ++ l₂).Forall p :=
  List.forall_iff_forall_mem.mpr fun op h => (List.mem_append.mp h).elim
    (List.forall_iff_forall_mem.mp h₁ op) (List.forall_iff_forall_mem.mp h₂ op)

theorem ops_sub : (ops : List (HloOp τ sig (Elt F))).Forall fun op => op.bufs ⊆ tcRefs τ sig :=
  forall_append (forall_append weightOps_sub (forall_append groupOps_sub factorOps_sub)) (forall_append quadOps_sub densityOps_sub)

/-- The contents after two lines run in order are the contents after the second, from the contents after the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The contents after the whole line are the contents after the sample operations, from the contents after the table
    operations. -/
theorem after_ops (V : Valuation τ sig (Elt F)) : after ops V = after sampleOps (after tableOps V) :=
  after_append tableOps sampleOps V

/-- From any memory with zero counters every weakly fair execution of @main terminates, and every buffer ends at
    the fold of the line's operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.Line

end
-- ==== Proof.LibHostRead.lean ====
/-
  General lemmas for reading a host program's operations at an index, at the ideal instance.

  * `hostDotGeneral_plain_apply`: the host's product of an [M, K] operand with a [K, N] operand, read at (p, j), is the
    sum over k of lhs (p, k) · rhs (k, j), for any record of dimension numbers whose four axis facts are given (the
    host's product is the kernel's product into a zero accumulator).
  * `hostReduceAdd_rows_apply`: the host's sum of an [R, K] array along its last axis, read at row r, is the initial
    value plus the sum over k of the array at (r, k).
  * `broadcastInDim_vec_row_apply`: a vector of n entries laid out as the one row of a [1, n] array reads, at (u, k),
    the vector at k.
  * `broadcastInDim_vec_col_apply`: a vector of n entries laid out as the one column of an [n, 1] array reads, at
    (r, u), the vector at r.
-/
import Idealize.ShloMosaic.PureOps.Ideal.Laws
import Idealize.ShloMosaic.Lib.ValueIdx
import Idealize.ShloMosaic.Lib.Pipeline.Value
import Idealize.ShloMosaic.Lib.IdealHost
import Idealize.ShloMosaic.Lib.KernelVsHost
import proofs.«166626_j6116033429850_1_alg».proof.Proof.LibPlainDot

noncomputable section

namespace Cert.LibHostRead

open Idealize.ShloMosaic Idealize.ShloMosaic.ValueIdx

/-- The host's plain two-operand matrix product read at (p, j): ∑ₖ lhs (p, k) · rhs (k, j). -/
theorem hostDotGeneral_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    Host.dotGeneral d prec lhs rhs (ix2 p j) = ∑ k : Fin K, lhs (ix2 p k) * rhs (ix2 k j) := by
  rw [← matmul_zero_eq_dotGeneral]
  exact Cert.Lib.matmul_plain_apply d hr hs hl0 hl1 hr0 hr1 prec lhs rhs p j

/-- The host's row-wise sum of an [R, K] array read at row r: the initial value plus ∑ₖ x (r, k). -/
theorem hostReduceAdd_rows_apply {R K : ℕ} {φ : FTy} (x : FVec Ideal ⟨2, ![R, K]⟩ φ) (init : (⟨0, ![]⟩ : Shape).Idx → Ideal φ)
    (h' : (⟨2, ![R, K]⟩ : Shape).ReducesTo [1] ⟨1, ![R]⟩) (hu : 0 < (⟨0, ![]⟩ : Shape).numel)
    (h : (⟨2, ![R, K]⟩ : Shape).Reduces [1] ⟨1, ![R]⟩) (r : Fin R) :
    Host.reduceAdd x init h' hu (ix1 r) = init ix0 + ∑ k : Fin K, x (ix2 r k) := by
  rw [hostReduceAdd_apply]
  refine (Ideal.hostReduceAdd_single h' h x _ (ix1 r)).trans ?_
  refine congr (congrArg (· + ·) (congrArg init (eq_ix0 _))) (Finset.sum_congr rfl fun k _ => ?_)
  exact congrArg x (funext fun a => Fin.ext (by match a with | ⟨0, _⟩ => rfl | ⟨1, _⟩ => rfl))

variable {α : Type}

/-- A vector laid out as the one row of a [1, n] array reads, at (u, k), the vector at k. -/
theorem broadcastInDim_vec_row_apply {n : ℕ} (h : (⟨1, ![n]⟩ : Shape).BroadcastsInDim ⟨2, ![1, n]⟩ ![1])
    (v : (⟨1, ![n]⟩ : Shape).Idx → α) (u : Fin 1) (k : Fin n) :
    broadcastInDim ⟨2, ![1, n]⟩ ![1] h v (ix2 u k) = v (ix1 k) := by
  refine broadcastInDim_apply ![1] h v (ix2 u k) (ix1 k) fun a => ?_
  match a with
  | ⟨0, _⟩ =>
    show k.val = if n = 1 then 0 else k.val
    split
    · have := k.isLt; omega
    · rfl

/-- A vector laid out as the one column of an [n, 1] array reads, at (r, u), the vector at r. -/
theorem broadcastInDim_vec_col_apply {n : ℕ} (h : (⟨1, ![n]⟩ : Shape).BroadcastsInDim ⟨2, ![n, 1]⟩ ![0])
    (v : (⟨1, ![n]⟩ : Shape).Idx → α) (r : Fin n) (u : Fin 1) :
    broadcastInDim ⟨2, ![n, 1]⟩ ![0] h v (ix2 r u) = v (ix1 r) := by
  refine broadcastInDim_apply ![0] h v (ix2 r u) (ix1 r) fun a => ?_
  match a with
  | ⟨0, _⟩ =>
    show r.val = if n = 1 then 0 else r.val
    split
    · have := r.isLt; omega
    · rfl

end Cert.LibHostRead

end
-- ==== Proof.RefValue.lean ====
/-
  The reference's result column, read at an entry.

  After the table operations have run, the operations over the samples read five arrays: the samples, the means, the
  reciprocal covariances, the normalising factors and the weights. Entry (n, 0) of the result is

      log ( 0 + Σ_k (factor_k · exp(−½ · quad_n(k))) · weight_k )  +  c

  with quad_n(k) the quadratic form of sample row n against component k: the host's two matrix products are sums over
  the 20 coordinates against the transposed tables, its row sums are sums over the 168 components from a zero, and
  each table laid out as one row and repeated over the samples reads the table at the component.
-/
import proofs.«166626_j6116033429850_1_alg».proof.Proof.RefLine
import proofs.«166626_j6116033429850_1_alg».proof.Proof.MixSpec
import proofs.«166626_j6116033429850_1_alg».proof.Proof.LibHostRead

noncomputable section

namespace Cert.ReferenceIdeal.Line

open Cert.ReferenceIdeal Cert.ReferenceIdeal.Gen Idealize.ShloMosaic Idealize.ShloMosaic.TcCoe Idealize.SL.Sem
open Idealize.ShloMosaic.StableHlo Idealize.ShloMosaic.ValueIdx

/-! ### The host product's index maps: output (row, column), contraction over the one shared axis -/

theorem contr_rank : (dot_S524288x20_S20x168_S524288x168_1_0_0_1_n_n).contr.rank = 1 := rfl
theorem contr_size : (dot_S524288x20_S20x168_S524288x168_1_0_0_1_n_n).contr.size ⟨0, by decide⟩ = 20 := rfl

theorem lhs_row (i : S524288x168.Idx) (q : (dot_S524288x20_S20x168_S524288x168_1_0_0_1_n_n).contr.Idx) :
    ((dot_S524288x20_S20x168_S524288x168_1_0_0_1_n_n).lhsIdx i q 0).val = (i 0).val := by
  simp [DotDims.lhsIdx, dot_S524288x20_S20x168_S524288x168_1_0_0_1_n_n]; rfl
theorem lhs_contr (i : S524288x168.Idx) (q : (dot_S524288x20_S20x168_S524288x168_1_0_0_1_n_n).contr.Idx) :
    ((dot_S524288x20_S20x168_S524288x168_1_0_0_1_n_n).lhsIdx i q 1).val = (q ⟨0, by decide⟩).val := by
  simp [DotDims.lhsIdx, dot_S524288x20_S20x168_S524288x168_1_0_0_1_n_n]; rfl
theorem rhs_contr (i : S524288x168.Idx) (q : (dot_S524288x20_S20x168_S524288x168_1_0_0_1_n_n).contr.Idx) :
    ((dot_S524288x20_S20x168_S524288x168_1_0_0_1_n_n).rhsIdx i q 0).val = (q ⟨0, by decide⟩).val := by
  simp [DotDims.rhsIdx, dot_S524288x20_S20x168_S524288x168_1_0_0_1_n_n]; rfl
theorem rhs_col (i : S524288x168.Idx) (q : (dot_S524288x20_S20x168_S524288x168_1_0_0_1_n_n).contr.Idx) :
    ((dot_S524288x20_S20x168_S524288x168_1_0_0_1_n_n).rhsIdx i q 1).val = (i 1).val := by
  simp [DotDims.rhsIdx, dot_S524288x20_S20x168_S524288x168_1_0_0_1_n_n]; rfl

/-- All the samples times a transposed table, at (n, k): the sum over the 20 coordinates. -/
theorem product_apply (l : FVec Ideal S524288x20 .f32) (t : FVec Ideal S20x168 .f32) (n : Fin 524288) (k : Fin 168) :
    Host.dotGeneral dot_S524288x20_S20x168_S524288x168_1_0_0_1_n_n none l t (ix2 n k) = ∑ d : Fin 20, l (ix2 n d) * t (ix2 d k) :=
  Cert.LibHostRead.hostDotGeneral_plain_apply dot_S524288x20_S20x168_S524288x168_1_0_0_1_n_n contr_rank contr_size
    lhs_row lhs_contr rhs_contr rhs_col none l t n k

/-- A per-component table laid out as one row and repeated over the samples, at (n, k): the table at k. -/
theorem over_samples_apply (v : FVec Ideal S168 .f32) (n : Fin 524288) (k : Fin 168) :
    broadcastInDim S524288x168 ![0, 1] bcast_S1x168_S524288x168_0_1 (broadcastInDim S1x168 ![1] bcast_S168_S1x168_1 v) (ix2 n k)
      = v (ix1 k) := by
  rw [broadcastInDim_oneRow_apply, Cert.LibHostRead.broadcastInDim_vec_row_apply]

/-- The host's logarithm and exponential, entry by entry. -/
theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl

/-- The sum over the components keeps the sample axis. -/
theorem sample_rows : S524288x168.Reduces [1] S524288 := by decide

variable (W : Valuation τ sig (Elt Ideal))

/-- The five arrays the sample operations read, each at its literal type. -/
abbrev samples : FVec Ideal S524288x20 .f32 := W (Proc.devRef .tc main_arg0)
abbrev means : FVec Ideal S168x20 .f32 := W (Proc.devRef .tc main_arg2)
abbrev recips : FVec Ideal S168x20 .f32 := W (Proc.devRef .tc main_v22)
abbrev factors : FVec Ideal S168 .f32 := W (Proc.devRef .tc main_v32)
abbrev weights : FVec Ideal S168 .f32 := W (Proc.devRef .tc main_v9)

/-- The per-component offsets: the row sums of the squared means times the reciprocal covariances, from zero. -/
abbrev offsets : FVec Ideal S168 .f32 :=
  Host.reduceAdd (mulf (mulf (means W) (means W)) (recips W)) (constant S_ .f32 0x00000000#32) reducesTo_S168x20_S168_d1 h_S_

set_option maxRecDepth 65536 in
set_option maxHeartbeats 4000000 in
/-- The result column at (n, 0), from the contents the table operations leave. -/
theorem result_apply (n : Fin 524288) (u : Fin 1) :
    (after sampleOps W (Proc.devRef .tc main_v61) : S524288x1.Idx → EReal) (ix2 n u)
      = Ideal.log (Ideal.ofBits .f32 0x00000000#32 + ∑ k : Fin 168,
          (factors W (ix1 k)
            * Mixture.expTerm (fun d => samples W (ix2 n d))
                (fun d k => transpose S20x168 [1, 0] (recips W) transposes_S168x20_S20x168_1_0 (ix2 d k))
                (fun d k => transpose S20x168 [1, 0] (mulf (means W) (recips W)) transposes_S168x20_S20x168_1_0 (ix2 d k))
                (fun k => offsets W (ix1 k)) k)
            * weights W (ix1 k))
        + Ideal.ofBits .f32 0xC19307B9#32 := by
  simp only [sampleOps, quadOps, densityOps, List.cons_append, List.nil_append]
  after_results_simp
  rw [addf_apply, hostLog_apply, Cert.LibHostRead.broadcastInDim_vec_col_apply, broadcastInDim_scalar_apply, constant_apply,
    Cert.LibHostRead.hostReduceAdd_rows_apply _ _ reducesTo_S524288x168_S524288_d1 h_S_ sample_rows n, constant_apply]
  refine congrArg (fun s => Ideal.log (Ideal.ofBits .f32 0x00000000#32 + s) + Ideal.ofBits .f32 0xC19307B9#32)
    (Finset.sum_congr rfl fun k _ => ?_)
  unfold Mixture.expTerm Mixture.quad
  simp only [mulf_apply, addf_apply, subf_apply, hostExp_apply, product_apply]
  rw [over_samples_apply, over_samples_apply, over_samples_apply, broadcastInDim_scalar_apply, broadcastInDim_scalar_apply,
    constant_apply, constant_apply]

end Cert.ReferenceIdeal.Line

end
-- ==== Proof.Tables.lean ====
/-
  The two programs compute the same component tables.

  Before its one kernel region the kernel's program runs, on the host, the same operations the reference runs first:
  the softmax weights of `alpha`, the group index of each component, the reciprocal covariances and the normalising
  factors; it then multiplies the means by the reciprocals, sums the squared means times the reciprocals along each
  row, multiplies the factors by the weights, transposes the two [168, 20] tables and lays the two vectors out as rows.
  Read back operation by operation, each array the region finds is the same composed term of `alpha`, `mu` and `cov`
  as the corresponding term of the reference's table operations, so on arguments that agree they are equal.
-/
import proofs.«166626_j6116033429850_1_alg».proof.Proof.Gen.KernelIdeal.Frame
import proofs.«166626_j6116033429850_1_alg».proof.Proof.RefLine
import Idealize.ShloMosaic.Lib.StableHlo.Run
import Idealize.ShloMosaic.PureOps.Ideal.Laws

noncomputable section

namespace Cert.Tables

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
         (m' : (ℓ : Loc Cert.ReferenceIdeal.nD Cert.ReferenceIdeal.τ Cert.ReferenceIdeal.sig) → Buf (Elt Ideal) ℓ)

/-- The contents the reference's table operations leave, from its launch contents on core `c`. -/
abbrev refTables (c : Dev Cert.ReferenceIdeal.nD) : Valuation Cert.ReferenceIdeal.τ Cert.ReferenceIdeal.sig (Elt Ideal) :=
  after Cert.ReferenceIdeal.Line.tableOps (launchContents m' c)

set_option maxRecDepth 8192 in
set_option maxHeartbeats 4000000 in
/-- The table of reciprocal variances the region finds is the reference's reciprocal covariances, transposed. -/
theorem recips_eq (c : Dev Cert.KernelIdeal.nD)
    (h3 : m' (c, Proc.devRef .tc Cert.ReferenceIdeal.main_arg3) = m (c, Proc.devRef .tc Cert.KernelIdeal.main_arg3)) :
    (transpose Cert.KernelIdeal.S20x168 [1, 0] (refTables m' c (Proc.devRef .tc Cert.ReferenceIdeal.main_v22))
        Cert.KernelIdeal.Facts₀.transposes_S168x20_S20x168_1_0 : Cert.KernelIdeal.S20x168.Idx → EReal)
      = Cert.KernelIdeal.Gen.V m c Cert.KernelIdeal.main_v38 := by
  dsimp only [Cert.KernelIdeal.Gen.V, refTables]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, List.flatten_cons, List.flatten_nil, List.append_nil, List.cons_append, List.nil_append,
    Cert.ReferenceIdeal.Line.tableOps, Cert.ReferenceIdeal.Line.weightOps, Cert.ReferenceIdeal.Line.groupOps, Cert.ReferenceIdeal.Line.factorOps]
  after_results_simp
  rw [show launchContents m' c (Proc.devRef .tc Cert.ReferenceIdeal.main_arg3) = m (c, Proc.devRef .tc Cert.KernelIdeal.main_arg3) from h3]

set_option maxRecDepth 8192 in
set_option maxHeartbeats 4000000 in
/-- The table of scaled means the region finds is the reference's means times its reciprocal covariances, transposed. -/
theorem scaled_means_eq (c : Dev Cert.KernelIdeal.nD)
    (h2 : m' (c, Proc.devRef .tc Cert.ReferenceIdeal.main_arg2) = m (c, Proc.devRef .tc Cert.KernelIdeal.main_arg2))
    (h3 : m' (c, Proc.devRef .tc Cert.ReferenceIdeal.main_arg3) = m (c, Proc.devRef .tc Cert.KernelIdeal.main_arg3)) :
    (transpose Cert.KernelIdeal.S20x168 [1, 0]
        (mulf (F := Ideal) (φ := .f32) (refTables m' c (Proc.devRef .tc Cert.ReferenceIdeal.main_arg2))
          (refTables m' c (Proc.devRef .tc Cert.ReferenceIdeal.main_v22)))
        Cert.KernelIdeal.Facts₀.transposes_S168x20_S20x168_1_0 : Cert.KernelIdeal.S20x168.Idx → EReal)
      = Cert.KernelIdeal.Gen.V m c Cert.KernelIdeal.main_v39 := by
  dsimp only [Cert.KernelIdeal.Gen.V, refTables]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, List.flatten_cons, List.flatten_nil, List.append_nil, List.cons_append, List.nil_append,
    Cert.ReferenceIdeal.Line.tableOps, Cert.ReferenceIdeal.Line.weightOps, Cert.ReferenceIdeal.Line.groupOps, Cert.ReferenceIdeal.Line.factorOps]
  after_results_simp
  rw [show launchContents m' c (Proc.devRef .tc Cert.ReferenceIdeal.main_arg3) = m (c, Proc.devRef .tc Cert.KernelIdeal.main_arg3) from h3,
    show launchContents m' c (Proc.devRef .tc Cert.ReferenceIdeal.main_arg2) = m (c, Proc.devRef .tc Cert.KernelIdeal.main_arg2) from h2]

set_option maxRecDepth 8192 in
set_option maxHeartbeats 4000000 in
/-- The row of offsets the region finds is the reference's row sums of squared means times reciprocal covariances,
    laid out as one row. -/
theorem offsets_eq (c : Dev Cert.KernelIdeal.nD)
    (h2 : m' (c, Proc.devRef .tc Cert.ReferenceIdeal.main_arg2) = m (c, Proc.devRef .tc Cert.KernelIdeal.main_arg2))
    (h3 : m' (c, Proc.devRef .tc Cert.ReferenceIdeal.main_arg3) = m (c, Proc.devRef .tc Cert.KernelIdeal.main_arg3)) :
    (shapeCast Cert.KernelIdeal.S1x168
        (Host.reduceAdd (F := Ideal) (φ := .f32)
          (mulf (mulf (refTables m' c (Proc.devRef .tc Cert.ReferenceIdeal.main_arg2))
              (refTables m' c (Proc.devRef .tc Cert.ReferenceIdeal.main_arg2)))
            (refTables m' c (Proc.devRef .tc Cert.ReferenceIdeal.main_v22)))
          (constant Cert.ReferenceIdeal.S_ .f32 0x00000000#32) Cert.ReferenceIdeal.Facts₀.reducesTo_S168x20_S168_d1
          Cert.ReferenceIdeal.Facts₀.h_S_)
        Cert.KernelIdeal.Facts₀.shapeCasts_S168_S1x168 : Cert.KernelIdeal.S1x168.Idx → EReal)
      = Cert.KernelIdeal.Gen.V m c Cert.KernelIdeal.main_v40 := by
  dsimp only [Cert.KernelIdeal.Gen.V, refTables]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, List.flatten_cons, List.flatten_nil, List.append_nil, List.cons_append, List.nil_append,
    Cert.ReferenceIdeal.Line.tableOps, Cert.ReferenceIdeal.Line.weightOps, Cert.ReferenceIdeal.Line.groupOps, Cert.ReferenceIdeal.Line.factorOps]
  after_results_simp
  rw [show launchContents m' c (Proc.devRef .tc Cert.ReferenceIdeal.main_arg3) = m (c, Proc.devRef .tc Cert.KernelIdeal.main_arg3) from h3,
    show launchContents m' c (Proc.devRef .tc Cert.ReferenceIdeal.main_arg2) = m (c, Proc.devRef .tc Cert.KernelIdeal.main_arg2) from h2]
  rfl

set_option maxRecDepth 8192 in
set_option maxHeartbeats 4000000 in
/-- The row of scales the region finds is the reference's normalising factors times its weights, laid out as one row. -/
theorem scales_eq (c : Dev Cert.KernelIdeal.nD)
    (h1 : m' (c, Proc.devRef .tc Cert.ReferenceIdeal.main_arg1) = m (c, Proc.devRef .tc Cert.KernelIdeal.main_arg1)) :
    (shapeCast Cert.KernelIdeal.S1x168
        (mulf (F := Ideal) (φ := .f32) (refTables m' c (Proc.devRef .tc Cert.ReferenceIdeal.main_v32))
          (refTables m' c (Proc.devRef .tc Cert.ReferenceIdeal.main_v9)))
        Cert.KernelIdeal.Facts₀.shapeCasts_S168_S1x168 : Cert.KernelIdeal.S1x168.Idx → EReal)
      = Cert.KernelIdeal.Gen.V m c Cert.KernelIdeal.main_v41 := by
  dsimp only [Cert.KernelIdeal.Gen.V, refTables]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, List.flatten_cons, List.flatten_nil, List.append_nil, List.cons_append, List.nil_append,
    Cert.ReferenceIdeal.Line.tableOps, Cert.ReferenceIdeal.Line.weightOps, Cert.ReferenceIdeal.Line.groupOps, Cert.ReferenceIdeal.Line.factorOps]
  after_results_simp
  rw [show launchContents m' c (Proc.devRef .tc Cert.ReferenceIdeal.main_arg1) = m (c, Proc.devRef .tc Cert.KernelIdeal.main_arg1) from h1]
  rfl

set_option maxRecDepth 8192 in
set_option maxHeartbeats 4000000 in
/-- The table operations leave the samples as launched. -/
theorem samples_eq (c : Dev Cert.ReferenceIdeal.nD) :
    refTables m' c (Proc.devRef .tc Cert.ReferenceIdeal.main_arg0) = m' (c, Proc.devRef .tc Cert.ReferenceIdeal.main_arg0) := by
  dsimp only [refTables]
  simp only [Cert.ReferenceIdeal.Line.tableOps, Cert.ReferenceIdeal.Line.weightOps, Cert.ReferenceIdeal.Line.groupOps,
    Cert.ReferenceIdeal.Line.factorOps, List.cons_append, List.nil_append]
  after_results_simp

end Cert.Tables

end
-- ==== Proof.Bridge.lean ====
/-
  The two results are one function.

  On arguments that agree, entry (n, 0) of the reference's result is the logarithm of
  0 + Σ_k (factor_k · e_k) · weight_k plus the constant, and entry (n, 0) of the kernel's result is the logarithm of
  Σ_k scale_k · e_k plus the constant, where e_k is the exponential factor of sample row n against component k. The
  tables inside e_k are the same arrays in both programs, the kernel's scale_k is factor_k · weight_k laid out as a
  row, and multiplication of extended reals commutes and associates; so the two entries are equal.
-/
import proofs.«166626_j6116033429850_1_alg».proof.Proof.KernelArray
import proofs.«166626_j6116033429850_1_alg».proof.Proof.RefValue
import proofs.«166626_j6116033429850_1_alg».proof.Proof.Tables
import Idealize.ShloMosaic.Lib.ValueLayout

noncomputable section

namespace Cert.Bridge

open Idealize.ShloMosaic Idealize.ShloMosaic.TcCoe Idealize.SL.Sem Idealize.ShloMosaic.StableHlo Idealize.ShloMosaic.ValueIdx

variable (m : (ℓ : Loc Cert.KernelIdeal.nD Cert.KernelIdeal.τ Cert.KernelIdeal.sig) → Buf (Elt Ideal) ℓ)
         (m' : (ℓ : Loc Cert.ReferenceIdeal.nD Cert.ReferenceIdeal.τ Cert.ReferenceIdeal.sig) → Buf (Elt Ideal) ℓ)

set_option maxHeartbeats 2000000 in
/-- The reference's result column, after its whole line, is the kernel's result column. -/
theorem result_eq (c : Dev Cert.KernelIdeal.nD)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1))
    (h2 : m' (c, Proc.devRef .tc Cert.ReferenceIdeal.main_arg2) = m (c, Proc.devRef .tc Cert.KernelIdeal.main_arg2))
    (h3 : m' (c, Proc.devRef .tc Cert.ReferenceIdeal.main_arg3) = m (c, Proc.devRef .tc Cert.KernelIdeal.main_arg3)) :
    (after Cert.ReferenceIdeal.Line.ops (launchContents m' c) (Proc.devRef .tc Cert.ReferenceIdeal.main_v61)
        : Cert.KernelIdeal.S524288x1.Idx → EReal)
      = Cert.KernelIdeal.Whole.density (Cert.KernelIdeal.Gen.V m c Cert.KernelIdeal.main_arg0)
          (Cert.KernelIdeal.Gen.V m c Cert.KernelIdeal.main_v38) (Cert.KernelIdeal.Gen.V m c Cert.KernelIdeal.main_v39)
          (Cert.KernelIdeal.Gen.V m c Cert.KernelIdeal.main_v40) (Cert.KernelIdeal.Gen.V m c Cert.KernelIdeal.main_v41) := by
  funext i
  obtain ⟨n, u, rfl⟩ : ∃ (n : Fin 524288) (u : Fin 1), i = ix2 n u := ⟨i 0, i 1, eq_ix2 i⟩
  rw [Cert.ReferenceIdeal.Line.after_ops]
  refine (Cert.ReferenceIdeal.Line.result_apply (Cert.Tables.refTables m' c) n u).trans ?_
  refine (congrArg (fun s => Ideal.log s + Ideal.ofBits .f32 0xC19307B9#32) (Cert.Mixture.sum_factor_then_weight _ _ _)).trans ?_
  unfold Cert.KernelIdeal.Whole.density Cert.Mixture.logDensity
  refine congrArg (fun s => Ideal.log s + Ideal.ofBits .f32 0xC19307B9#32) (Finset.sum_congr rfl fun k _ => ?_)
  -- the samples, and the four tables, of the two programs
  have hsam : (Cert.ReferenceIdeal.Line.samples (Cert.Tables.refTables m' c) : Cert.KernelIdeal.S524288x20.Idx → EReal)
      = Cert.KernelIdeal.Gen.V m c Cert.KernelIdeal.main_arg0 :=
    (Cert.Tables.samples_eq m' c).trans (h0.trans (Cert.KernelIdeal.Gen.V_main_arg0 m c).symm)
  have hx : (fun d => Cert.ReferenceIdeal.Line.samples (Cert.Tables.refTables m' c) (ix2 n d))
      = fun d => Cert.KernelIdeal.Gen.V m c Cert.KernelIdeal.main_arg0 (ix2 (Cert.KernelIdeal.Whole.rowOf (ix2 n u)) d) :=
    funext fun d => congrFun hsam (ix2 n d)
  have hA : (fun d k => transpose Cert.ReferenceIdeal.S20x168 [1, 0] (Cert.ReferenceIdeal.Line.recips (Cert.Tables.refTables m' c))
        Cert.ReferenceIdeal.Facts₀.transposes_S168x20_S20x168_1_0 (ix2 d k))
      = fun d k => Cert.KernelIdeal.Gen.V m c Cert.KernelIdeal.main_v38 (ix2 d k) :=
    funext fun d => funext fun k => congrFun (Cert.Tables.recips_eq m m' c h3) (ix2 d k)
  have hB : (fun d k => transpose Cert.ReferenceIdeal.S20x168 [1, 0]
        (mulf (Cert.ReferenceIdeal.Line.means (Cert.Tables.refTables m' c)) (Cert.ReferenceIdeal.Line.recips (Cert.Tables.refTables m' c)))
        Cert.ReferenceIdeal.Facts₀.transposes_S168x20_S20x168_1_0 (ix2 d k))
      = fun d k => Cert.KernelIdeal.Gen.V m c Cert.KernelIdeal.main_v39 (ix2 d k) :=
    funext fun d => funext fun k => congrFun (Cert.Tables.scaled_means_eq m m' c h2 h3) (ix2 d k)
  have hO : (fun k => Cert.ReferenceIdeal.Line.offsets (Cert.Tables.refTables m' c) (ix1 k))
      = fun k => Cert.KernelIdeal.Gen.V m c Cert.KernelIdeal.main_v40 (ix2 (0 : Fin 1) k) :=
    funext fun k => (shapeCast_a_1a_apply _ Cert.KernelIdeal.Facts₀.shapeCasts_S168_S1x168 0 k).symm.trans
      (congrFun (Cert.Tables.offsets_eq m m' c h2 h3) (ix2 (0 : Fin 1) k))
  have hS : Cert.ReferenceIdeal.Line.factors (Cert.Tables.refTables m' c) (ix1 k)
        * Cert.ReferenceIdeal.Line.weights (Cert.Tables.refTables m' c) (ix1 k)
      = Cert.KernelIdeal.Gen.V m c Cert.KernelIdeal.main_v41 (ix2 (0 : Fin 1) k) :=
    (shapeCast_a_1a_apply (mulf (Cert.ReferenceIdeal.Line.factors (Cert.Tables.refTables m' c))
        (Cert.ReferenceIdeal.Line.weights (Cert.Tables.refTables m' c))) Cert.KernelIdeal.Facts₀.shapeCasts_S168_S1x168 0 k).symm.trans
      (congrFun (Cert.Tables.scales_eq m m' c h1) (ix2 (0 : Fin 1) k))
  show Cert.ReferenceIdeal.Line.factors (Cert.Tables.refTables m' c) (ix1 k)
        * Cert.ReferenceIdeal.Line.weights (Cert.Tables.refTables m' c) (ix1 k)
      * Cert.Mixture.expTerm (fun d => Cert.ReferenceIdeal.Line.samples (Cert.Tables.refTables m' c) (ix2 n d))
          (fun d k => transpose Cert.ReferenceIdeal.S20x168 [1, 0] (Cert.ReferenceIdeal.Line.recips (Cert.Tables.refTables m' c))
            Cert.ReferenceIdeal.Facts₀.transposes_S168x20_S20x168_1_0 (ix2 d k))
          (fun d k => transpose Cert.ReferenceIdeal.S20x168 [1, 0]
            (mulf (Cert.ReferenceIdeal.Line.means (Cert.Tables.refTables m' c)) (Cert.ReferenceIdeal.Line.recips (Cert.Tables.refTables m' c)))
            Cert.ReferenceIdeal.Facts₀.transposes_S168x20_S20x168_1_0 (ix2 d k))
          (fun k => Cert.ReferenceIdeal.Line.offsets (Cert.Tables.refTables m' c) (ix1 k)) k = _
  rw [hS, hx, hA, hB, hO]

end Cert.Bridge

end
-- ==== Proof.RefKept.lean ====
/-
  The reference's line writes none of its four argument arrays: each operation writes the one buffer of its own result,
  and no result buffer is an argument's. So after the whole line each argument holds what it was launched with.
-/
import proofs.«166626_j6116033429850_1_alg».proof.Proof.RefLine

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F] (V : Valuation τ sig (Elt F))

set_option maxHeartbeats 4000000 in
theorem kept_arg0 : after ops V (Proc.devRef .tc main_arg0) = V (Proc.devRef .tc main_arg0) := by
  simp only [ops, tableOps, sampleOps, weightOps, groupOps, factorOps, quadOps, densityOps, List.cons_append, List.nil_append]
  after_results_simp

set_option maxHeartbeats 4000000 in
theorem kept_arg1 : after ops V (Proc.devRef .tc main_arg1) = V (Proc.devRef .tc main_arg1) := by
  simp only [ops, tableOps, sampleOps, weightOps, groupOps, factorOps, quadOps, densityOps, List.cons_append, List.nil_append]
  after_results_simp

set_option maxHeartbeats 4000000 in
theorem kept_arg2 : after ops V (Proc.devRef .tc main_arg2) = V (Proc.devRef .tc main_arg2) := by
  simp only [ops, tableOps, sampleOps, weightOps, groupOps, factorOps, quadOps, densityOps, List.cons_append, List.nil_append]
  after_results_simp

set_option maxHeartbeats 4000000 in
theorem kept_arg3 : after ops V (Proc.devRef .tc main_arg3) = V (Proc.devRef .tc main_arg3) := by
  simp only [ops, tableOps, sampleOps, weightOps, groupOps, factorOps, quadOps, densityOps, List.cons_append, List.nil_append]
  after_results_simp

end Cert.ReferenceIdeal.Line

end
-- ==== Proof.lean ====
/-
  The certificate of a Gaussian-mixture log-density kernel against its jnp reference, over the extended reals.

  Both programs take 524288 samples of 20 coordinates and the parameters of 168 diagonal Gaussian components (logits
  `alpha`, means `mu`, covariances `cov`) and return, for each sample x, log Σ_k s_k · exp(−½ · q_k(x)) + c, where
  q_k(x) = Σ_d x_d² · a_{k,d} − 2 · Σ_d x_d · μ_{k,d} · a_{k,d} + Σ_d μ_{k,d}² · a_{k,d} with a = 1 / cov, and s_k is the
  component's normalising factor times its softmax weight.

  The kernel's program computes the small tables (a and μ·a transposed, the offsets Σ_d μ²·a and the scales s as rows)
  on the host and then, block of 2048 samples by block, the two products, the exponentials and the sum over the
  components inside one kernel. The reference computes everything on the host over all samples at once, and scales each
  exponential by the factor first and by the weight afterwards.

  * The three frames: the kernel's two programs by their generated frame runs; the reference is a straight line of
    host operations, which terminates from any memory and writes none of its arguments.
  * The idealization rewrote nothing, so its ledger is empty.
  * The values: the kernel's result column is the log-density of each sample row against the tables its region finds;
    the reference's result, read entry by entry, is the same expression with the scale split in two; the tables are
    the same composed terms of the arguments in both programs; and multiplication of extended reals commutes and
    associates at every value, the infinities included, so no finiteness of the inputs is used.
-/
import proofs.«166626_j6116033429850_1_alg».proof.Defs
import proofs.«166626_j6116033429850_1_alg».proof.Proof.Gen.Kernel
import proofs.«166626_j6116033429850_1_alg».proof.Proof.Gen.Kernel.Skeleton
import proofs.«166626_j6116033429850_1_alg».proof.Proof.Gen.Kernel.Launch
import proofs.«166626_j6116033429850_1_alg».proof.Proof.Gen.Kernel.Points
import proofs.«166626_j6116033429850_1_alg».proof.Proof.Gen.Kernel.Frame
import proofs.«166626_j6116033429850_1_alg».proof.Proof.Gen.KernelIdeal
import proofs.«166626_j6116033429850_1_alg».proof.Proof.Gen.KernelIdeal.Skeleton
import proofs.«166626_j6116033429850_1_alg».proof.Proof.Gen.KernelIdeal.Launch
import proofs.«166626_j6116033429850_1_alg».proof.Proof.Gen.KernelIdeal.Points
import proofs.«166626_j6116033429850_1_alg».proof.Proof.Gen.KernelIdeal.Frame
import proofs.«166626_j6116033429850_1_alg».proof.Proof.Gen.ReferenceIdeal
import proofs.«166626_j6116033429850_1_alg».proof.Proof.Gen.Pre_finite_inputs
import proofs.«166626_j6116033429850_1_alg».proof.Proof.Bridge
import proofs.«166626_j6116033429850_1_alg».proof.Proof.RefKept
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference is a straight line of host operations: it terminates, and none of them writes an argument. -/
theorem frame_reference : Cert.frame_ReferenceIdeal := fun m ρ _ =>
  (θ_run Cert.ReferenceIdeal.defs _ _).mono
    (fun r h c => ⟨(h c Cert.ReferenceIdeal.main_arg0).trans (Cert.ReferenceIdeal.Line.kept_arg0 _),
      (h c Cert.ReferenceIdeal.main_arg1).trans (Cert.ReferenceIdeal.Line.kept_arg1 _),
      (h c Cert.ReferenceIdeal.main_arg2).trans (Cert.ReferenceIdeal.Line.kept_arg2 _),
      (h c Cert.ReferenceIdeal.main_arg3).trans (Cert.ReferenceIdeal.Line.kept_arg3 _)⟩)
    (Cert.ReferenceIdeal.Line.run (F := Ideal) m ρ)

/-- From memories that agree on the arguments both idealized programs end with the result column at the
    log-density of every sample row: the kernel's by its blocks, the reference's entry by entry, over equal tables. -/
theorem algebraic : Cert.algebraic_KernelIdeal_ReferenceIdeal := by
  intro m ρ m' ρ' _ hagree
  refine ⟨fun c => Cert.KernelIdeal.Whole.density (Cert.KernelIdeal.Gen.V m c Cert.KernelIdeal.main_arg0)
      (Cert.KernelIdeal.Gen.V m c Cert.KernelIdeal.main_v38) (Cert.KernelIdeal.Gen.V m c Cert.KernelIdeal.main_v39)
      (Cert.KernelIdeal.Gen.V m c Cert.KernelIdeal.main_v40) (Cert.KernelIdeal.Gen.V m c Cert.KernelIdeal.main_v41),
    Cert.KernelIdeal.Whole.run m ρ, ?_⟩
  refine (θ_run Cert.ReferenceIdeal.defs _ _).mono (fun r h c => ⟨?_,
      (h c Cert.ReferenceIdeal.main_arg0).trans (Cert.ReferenceIdeal.Line.kept_arg0 _),
      (h c Cert.ReferenceIdeal.main_arg1).trans (Cert.ReferenceIdeal.Line.kept_arg1 _),
      (h c Cert.ReferenceIdeal.main_arg2).trans (Cert.ReferenceIdeal.Line.kept_arg2 _),
      (h c Cert.ReferenceIdeal.main_arg3).trans (Cert.ReferenceIdeal.Line.kept_arg3 _)⟩)
    (Cert.ReferenceIdeal.Line.run (F := Ideal) m' ρ')
  exact (h c Cert.ReferenceIdeal.main_v61).trans
    (Cert.Bridge.result_eq m m' c (hagree c).1 (hagree c).2.1 (hagree c).2.2.1 (hagree c).2.2.2)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
